-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg6 : IVec S800000 32) (main_arg7 : IVec S800000 32) (main_v32 : IVec S_ 1) (main_c_12 : IVec S_ 32) : IVec S_ 1 :=
  let main_v33 : IVec S800000 32 := broadcastInDim S800000 ![] bcast_S_S800000 main_c_12
  let main_v34 : IVec S800000 1 := cmpi .slt main_arg6 main_v33
  let main_c_13 : IVec S_ 1 := constantI S_ 1 1#1
  let main_v35 : IVec S_ 1 := (fun x v => Host.reduce IntOp.andi x v reducesTo_S800000_S_d0 h_S_) main_v34 main_c_13
  let main_v36 : IVec S_ 1 := andi main_v32 main_v35
  let main_c_14 : IVec S_ 32 := constantI S_ 32 0#32
  let main_v37 : IVec S800000 32 := broadcastInDim S800000 ![] bcast_S_S800000 main_c_14
  let main_v38 : IVec S800000 1 := cmpi .sge main_arg7 main_v37
  let main_c_15 : IVec S_ 1 := constantI S_ 1 1#1
  let main_v39 : IVec S_ 1 := (fun x v => Host.reduce IntOp.andi x v reducesTo_S800000_S_d0 h_S_) main_v38 main_c_15
  let main_v40 : IVec S_ 1 := andi main_v36 main_v39
  let main_c_16 : IVec S_ 32 := constantI S_ 32 50000#32
  let main_v41 : IVec S800000 32 := broadcastInDim S800000 ![] bcast_S_S800000 main_c_16
  let main_v42 : IVec S800000 1 := cmpi .slt main_arg7 main_v41
  let main_c_17 : IVec S_ 1 := constantI S_ 1 1#1
  let main_v43 : IVec S_ 1 := (fun x v => Host.reduce IntOp.andi x v reducesTo_S800000_S_d0 h_S_) main_v42 main_c_17
  let main_v44 : IVec S_ 1 := andi main_v40 main_v43
  main_v44

def fn_part1 {F : FTy → Type} [FloatOps F] (main_arg4 : FVec F S128x64 .f32) (main_arg5 : FVec F S64 .f32) (main_arg6 : IVec S800000 32) (main_arg7 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S800000 32 := broadcastInDim S800000 ![] bcast_S_S800000 main_c_10
  let main_v30 : IVec S800000 1 := cmpi .sge main_arg6 main_v29
  let main_c_11 : IVec S_ 1 := constantI S_ 1 1#1
  let main_v31 : IVec S_ 1 := (fun x v => Host.reduce IntOp.andi x v reducesTo_S800000_S_d0 h_S_) main_v30 main_c_11
  let main_v32 : IVec S_ 1 := andi main_v28 main_v31
  let main_c_12 : IVec S_ 32 := constantI S_ 32 50000#32
  fn_part2 (F := F) main_arg6 main_arg7 main_v32 main_c_12

def fn {F : FTy → Type} [FloatOps F] (main_arg0 : FVec F S50000x128 .f32) (main_arg1 : FVec F S50000 .f32) (main_arg2 : FVec F S128x128 .f32) (main_arg3 : FVec F S128 .f32) (main_arg4 : FVec F S128x64 .f32) (main_arg5 : FVec F S64 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩
abbrev S1x64 : Shape := ⟨2, ![1, 64]⟩

abbrev nBuf : Space → Nat
  | .hbm => 41
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S800000, .i32⟩
  | .hbm, ⟨7, _⟩ => ⟨S800000, .i32⟩
  | .hbm, ⟨8, _⟩ => ⟨S50000x1, .f32⟩
  | .hbm, ⟨9, _⟩ => ⟨S50000x128, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x64, .f32⟩
  | .local _ .vmem, ⟨9, _⟩ => ⟨S64, .f32⟩
  | .local _ .vmem, ⟨10, _⟩ => ⟨S64, .f32⟩
  | .local _ .vmem, ⟨11, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S50000_S50000x1 : S50000.ShapeCasts S50000x1
  bcast_S50000x1_S50000x128_0_1 : S50000x1.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000x1_S50000 : S50000x1.ShapeCasts S50000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S128 : S5000x128.Reduces [0] S128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  shapeCasts_S1x64_S64 : S1x64.ShapeCasts S64
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S1x128_S128x64_S1x64_1_0_0_1_n_n_wf : DotDims.WF S1x128 S128x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .f32⟩
  | .hbm, ⟨26, _⟩ => ⟨S800000, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S800000x1, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics of the two-layer graph convolution with a node mean, over an abstract carrier.

  Nodes `ι`, edges `ε` with a source `s e` and a destination `d e`, a norm per node, features per node.
  One propagation sends `x` to  (P x) i = Σ_{e : d e = i} norm (d e) · norm (s e) · x (s e).
  The reference computes   mean_i ( P (relu (P feat · W1 + b1)) · W2 + b2 ).
  The kernel computes      ((Σ_i w i · relu ((A i · norm i) · W1 + b1)) · (1/N)) · W2 + b2
  with  A i = Σ_{e : d e = i} norm (s e) · feat (s e)   and   w j = norm j · Σ_{e : s e = j} norm (d e).
  Over the reals the two agree: P feat i = A i · norm i (the destination's norm is constant on the edges
  summed), and summing a propagation over ALL nodes is a sum over all edges,
  Σ_i (P h) i = Σ_e norm (d e) · norm (s e) · h (s e) = Σ_j w j · h j  (group the edges by source),
  while the mean of the constant row b2 is b2.  On the extended reals the same holds where every input
  is a real number, because then every intermediate value is the image of the real one.
-/
import Idealize.ShloMosaic.PureOps.Ideal.Laws
import Mathlib.Algebra.BigOperators.Fin
import Mathlib.Tactic.Ring

noncomputable section

open scoped BigOperators

namespace Cert.Gcn

/-! ## The two results as functions of the inputs, over any carrier with a sum, a product and a maximum -/

section Defs
variable {R : Type} [AddCommMonoid R] [Mul R] [Max R]
variable {ι ε φ κ γ χ : Type} [Fintype ι] [Fintype ε] [Fintype φ] [Fintype κ] [DecidableEq ι]
variable (feat : ι → φ → R) (nrm : ι → R) (W1 : φ → κ → R) (b1 : κ → R) (W2 : κ → γ → R) (b2 : γ → R)
  (s d : ε → ι) (invN : R)

/-- A dense layer with a rectifier: row `i` of `x` times `W1`, plus the bias, cut off below at zero. -/
def hid (x : ι → φ → R) (i : ι) (k : κ) : R := max (∑ f, x i f * W1 f k + b1 k) 0

/-- The rows of the sources, each scaled by its source's norm, summed at the destination. -/
def agg (i : ι) (f : φ) : R := ∑ e, if d e = i then nrm (s e) * feat (s e) f else 0

/-- The norms of the destinations of the edges that leave `j`, summed. -/
def tt (j : ι) : R := ∑ e, if s e = j then nrm (d e) else 0

/-- The hidden rows weighted by `norm j · tt j` and summed over all nodes. -/
def accK (k : κ) : R :=
  ∑ i, (nrm i * tt nrm s d i) * hid W1 b1 (fun i f => agg feat nrm s d i f * nrm i) i k

/-- The kernel's result: the weighted sum, scaled by `invN`, through the second layer. -/
def outK (c : γ) : R := ∑ k, (accK feat nrm W1 b1 s d k * invN) * W2 k c + b2 c

/-- One propagation: the rows of the sources scaled by both norms, summed at the destination. -/
def sp (x : ι → χ → R) (i : ι) (f : χ) : R :=
  ∑ e, if d e = i then (nrm (d e) * nrm (s e)) * x (s e) f else 0

/-- The reference's result: two propagated layers, then the mean over the nodes. -/
def outR (c : γ) : R :=
  (∑ i, (∑ k, sp nrm s d (hid W1 b1 (sp nrm s d feat)) i k * W2 k c + b2 c)) * invN

end Defs

/-! ## Over the reals the two results agree -/

section Real
variable {ι ε φ κ γ χ : Type} [Fintype ι] [Fintype ε] [Fintype φ] [Fintype κ] [DecidableEq ι]
variable (feat : ι → φ → ℝ) (nrm : ι → ℝ) (W1 : φ → κ → ℝ) (b1 : κ → ℝ) (W2 : κ → γ → ℝ) (b2 : γ → ℝ)
  (s d : ε → ι) (invN : ℝ)

/-- On the edges into `i` the destination's norm is `norm i`: it leaves the sum. -/
theorem sp_feat (i : ι) (f : φ) : sp nrm s d feat i f = agg feat nrm s d i f * nrm i := by
  unfold sp agg
  rw [Finset.sum_mul]
  refine Finset.sum_congr rfl fun e _ => ?_
  split_ifs with h
  · subst h; ring
  · ring

/-- A propagation summed over all nodes is a sum over all edges. -/
theorem sum_sp (x : ι → χ → ℝ) (k : χ) :
    ∑ i, sp nrm s d x i k = ∑ e, (nrm (d e) * nrm (s e)) * x (s e) k := by
  unfold sp
  rw [Finset.sum_comm]
  refine Finset.sum_congr rfl fun e _ => ?_
  rw [Finset.sum_ite_eq]
  simp

/-- The rows weighted by `norm j · tt j`, summed over the nodes: the same sum over the edges, grouped by source. -/
theorem sum_w (h : ι → χ → ℝ) (k : χ) :
    ∑ i, (nrm i * tt nrm s d i) * h i k = ∑ e, (nrm (d e) * nrm (s e)) * h (s e) k := by
  unfold tt
  simp_rw [Finset.mul_sum, Finset.sum_mul]
  rw [Finset.sum_comm]
  refine Finset.sum_congr rfl fun e _ => ?_
  rw [Finset.sum_eq_single (s e)]
  · rw [if_pos rfl]; ring
  · intro i _ hi
    rw [if_neg (Ne.symm hi)]; ring
  · intro h'; exact absurd (Finset.mem_univ _) h'

theorem outK_eq_outR (hN : (Fintype.card ι : ℝ) * invN = 1) (c : γ) :
    outK feat nrm W1 b1 W2 b2 s d invN c = outR feat nrm W1 b1 W2 b2 s d invN c := by
  unfold outK outR accK
  have hh : (fun i f => agg feat nrm s d i f * nrm i) = sp nrm s d feat := by
    funext i f; rw [sp_feat]
  rw [hh]
  simp_rw [sum_w nrm s d (hid W1 b1 (sp nrm s d feat))]
  rw [Finset.sum_add_distrib, Finset.sum_comm]
  simp_rw [← Finset.sum_mul, sum_sp]
  rw [Finset.sum_const, Finset.card_univ, nsmul_eq_mul, add_mul, Finset.sum_mul]
  congr 1
  · refine Finset.sum_congr rfl fun k _ => by ring
  · rw [mul_comm, ← mul_assoc, mul_comm invN, hN, one_mul]

end Real

/-! ## The extended reals: on real inputs every value is the image of the real one -/

section Coe

theorem coe_sum {α : Type} (t : Finset α) (f : α → ℝ) : ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

theorem coe_ite (P : Prop) [Decidable P] (a b : ℝ) : ((if P then a else b : ℝ) : EReal) = if P then (a : EReal) else (b : EReal) := by
  split_ifs <;> rfl

theorem coe_max (a b : ℝ) : ((max a b : ℝ) : EReal) = max (a : EReal) (b : EReal) :=
  EReal.coe_strictMono.monotone.map_max

variable {ι ε φ κ γ : Type} [Fintype ι] [Fintype ε] [Fintype φ] [Fintype κ] [DecidableEq ι]
variable (feat : ι → φ → ℝ) (nrm : ι → ℝ) (W1 : φ → κ → ℝ) (b1 : κ → ℝ) (W2 : κ → γ → ℝ) (b2 : γ → ℝ)
  (s d : ε → ι) (invN : ℝ)

theorem coe_outK (c : γ) :
    outK (R := EReal) (fun i f => (feat i f : EReal)) (fun i => (nrm i : EReal)) (fun f k => (W1 f k : EReal))
      (fun k => (b1 k : EReal)) (fun k c => (W2 k c : EReal)) (fun c => (b2 c : EReal)) s d (invN : EReal) c
    = ((outK feat nrm W1 b1 W2 b2 s d invN c : ℝ) : EReal) := by
  simp only [outK, accK, hid, agg, tt, coe_sum, coe_ite, coe_max, EReal.coe_mul, EReal.coe_add, EReal.coe_zero]

theorem coe_outR (c : γ) :
    outR (R := EReal) (fun i f => (feat i f : EReal)) (fun i => (nrm i : EReal)) (fun f k => (W1 f k : EReal))
      (fun k => (b1 k : EReal)) (fun k c => (W2 k c : EReal)) (fun c => (b2 c : EReal)) s d (invN : EReal) c
    = ((outR feat nrm W1 b1 W2 b2 s d invN c : ℝ) : EReal) := by
  simp only [outR, sp, hid, coe_sum, coe_ite, coe_max, EReal.coe_mul, EReal.coe_add, EReal.coe_zero]

end Coe

/-! ## The two results agree on the extended reals where every input is a real number -/

section Main
variable {ι ε φ κ γ : Type} [Fintype ι] [Fintype ε] [Fintype φ] [Fintype κ] [DecidableEq ι]

theorem outK_eq_outR_of_real (feat : ι → φ → EReal) (nrm : ι → EReal) (W1 : φ → κ → EReal) (b1 : κ → EReal)
    (W2 : κ → γ → EReal) (b2 : γ → EReal) (s d : ε → ι) (invN : ℝ)
    (hfeat : ∀ i f, ∃ r : ℝ, feat i f = (r : EReal)) (hnrm : ∀ i, ∃ r : ℝ, nrm i = (r : EReal))
    (hW1 : ∀ f k, ∃ r : ℝ, W1 f k = (r : EReal)) (hb1 : ∀ k, ∃ r : ℝ, b1 k = (r : EReal))
    (hW2 : ∀ k c, ∃ r : ℝ, W2 k c = (r : EReal)) (hb2 : ∀ c, ∃ r : ℝ, b2 c = (r : EReal))
    (hN : (Fintype.card ι : ℝ) * invN = 1) (c : γ) :
    outK feat nrm W1 b1 W2 b2 s d (invN : EReal) c = outR feat nrm W1 b1 W2 b2 s d (invN : EReal) c := by
  choose feat' hf using hfeat
  choose nrm' hn using hnrm
  choose W1' hw1 using hW1
  choose b1' hb1' using hb1
  choose W2' hw2 using hW2
  choose b2' hb2' using hb2
  obtain rfl : feat = fun i f => (feat' i f : EReal) := funext fun i => funext fun f => hf i f
  obtain rfl : nrm = fun i => (nrm' i : EReal) := funext hn
  obtain rfl : W1 = fun f k => (W1' f k : EReal) := funext fun f => funext fun k => hw1 f k
  obtain rfl : b1 = fun k => (b1' k : EReal) := funext hb1'
  obtain rfl : W2 = fun k c => (W2' k c : EReal) := funext fun k => funext fun c => hw2 k c
  obtain rfl : b2 = fun c => (b2' c : EReal) := funext hb2'
  rw [coe_outK, coe_outR, outK_eq_outR feat' nrm' W1' b1' W2' b2' s d invN hN c]

end Main

end Cert.Gcn

end
-- ==== Proof.PreFacts.lean ====
import proofs.«428738_j81819126989161_3_alg».proof.Pre_finite_inputs
import Idealize.ShloMosaic.Lib.ReduceAll
import Idealize.ShloMosaic.Lib.ValueIdx
import Idealize.ShloMosaic.Lib.StableHlo.Predicate
import Idealize.ShloMosaic.PureOps.Ideal.Laws

/-!
# The precondition, decoded

The precondition is a conjunction of ten "for all entries" tests, one per float input (the absolute value of every
entry is below +∞) and two per integer input (every entry is at least 0, and below 50000, read signed). Stated to
be 1, it says: every float entry is a real number, and each integer input is a map from edges to nodes.
-/

noncomputable section

namespace Cert.PreFacts

open Idealize.ShloMosaic Idealize.ShloMosaic.ValueIdx Cert.Pre_finite_inputs

variable [Cert.Pre_finite_inputs.Facts]

/-- The scalar shape has one index. -/
private instance : Subsingleton S_.Idx := ⟨fun a b => funext fun d => d.elim0⟩

/-- The pattern 0x7F800000 is +∞. -/
private theorem inf_f32 : Ideal.ofBits .f32 0x7F800000#32 = (⊤ : EReal) := by
  simp [Ideal.ofBits, Ideal.ieee]

/-- An extended real whose absolute value `max x (-x)` is below +∞ is a real number. -/
private theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A conjunction of two one-bit arrays that is 1 at an index: both are. -/
private theorem vand {s : Shape} (a b : IVec s 1) (i : s.Idx) (h : andi a b i = 1#1) : a i = 1#1 ∧ b i = 1#1 :=
  IntOp.andi_eq_one.1 h

/-- One entry of a float input: the test |x| < +∞ passed there, so the entry is real. -/
private theorem float_elem {s : Shape} (x : FVec Ideal s .f32) (hb : S_.BroadcastsInDim s (![] : Fin 0 → Fin s.rank))
    (i : s.Idx)
    (h : cmpf (F := Ideal) .olt (Host.absf (F := Ideal) x)
          (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [inf_f32] at h'
  exact real_of_abs_lt_top _ h'

/-- A float input all of whose entries passed the test has only real entries. -/
private theorem float_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf (F := Ideal) .olt (Host.absf (F := Ideal) x)
          (broadcastInDim s ![] hb (constant (F := Ideal) S_ .f32 0x7F800000#32))) (constantI S_ 1 1#1) hr hu ix0 = 1#1)
    (i : s.Idx) : ∃ r : ℝ, x i = (r : EReal) :=
  float_elem x hb i (Host.reduce_andi_all _ _ hr hu ix0 e i)

/-- An integer input all of whose entries are at least the constant 0, read signed. -/
private theorem int_ge_all {s : Shape} {axes : List (Fin s.rank)} (x : IVec s 32)
    (hb : S_.BroadcastsInDim s (![] : Fin 0 → Fin s.rank)) (hr : s.ReducesTo axes S_) (hu : 0 < S_.numel)
    (e : Host.reduce IntOp.andi (cmpi .sge x (broadcastInDim s ![] hb (constantI S_ 32 0#32))) (constantI S_ 1 1#1) hr hu ix0
          = 1#1)
    (i : s.Idx) : 0 ≤ (x i).toInt := by
  have h : IntOp.cmpi .sge (x i) 0#32 = 1#1 := Host.reduce_andi_all _ _ hr hu ix0 e i
  have z : (0#32 : BitVec 32).toInt = 0 := by decide
  rw [IntOp.cmpi_sge, z] at h
  exact h

/-- An integer input all of whose entries are below the constant 50000, read signed. -/
private theorem int_lt_all {s : Shape} {axes : List (Fin s.rank)} (x : IVec s 32)
    (hb : S_.BroadcastsInDim s (![] : Fin 0 → Fin s.rank)) (hr : s.ReducesTo axes S_) (hu : 0 < S_.numel)
    (e : Host.reduce IntOp.andi (cmpi .slt x (broadcastInDim s ![] hb (constantI S_ 32 50000#32))) (constantI S_ 1 1#1) hr hu
          ix0 = 1#1)
    (i : s.Idx) : (x i).toInt < 50000 := by
  have h : IntOp.cmpi .slt (x i) 50000#32 = 1#1 := Host.reduce_andi_all _ _ hr hu ix0 e i
  have z : (50000#32 : BitVec 32).toInt = 50000 := by decide
  rw [IntOp.cmpi_slt, z] at h
  exact h

/-- Words in [0, 50000) read signed are node numbers. -/
private theorem nodes_of_bounds (x : IVec S800000 32) (h0 : ∀ i, 0 ≤ (x i).toInt) (h1 : ∀ i, (x i).toInt < 50000) :
    ∃ s : Fin 800000 → Fin 50000, ∀ e : Fin 800000, (x (ix1 e)).toInt = ((s e).val : ℤ) := by
  refine ⟨fun e => ⟨(x (ix1 e)).toInt.toNat, ?_⟩, fun e => ?_⟩
  · have a := h0 (ix1 e)
    have b := h1 (ix1 e)
    omega
  · have a := h0 (ix1 e)
    show (x (ix1 e)).toInt = (((x (ix1 e)).toInt.toNat : ℕ) : ℤ)
    omega

theorem of_pre (x0 : FVec Ideal S50000x128 .f32) (x1 : FVec Ideal S50000 .f32) (x2 : FVec Ideal S128x128 .f32)
    (x3 : FVec Ideal S128 .f32) (x4 : FVec Ideal S128x64 .f32) (x5 : FVec Ideal S64 .f32) (x6 x7 : IVec S800000 32)
    (h : Cert.Pre_finite_inputs.fn (F := Ideal) x0 x1 x2 x3 x4 x5 x6 x7 = (fun _ => 1#1)) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∃ s : Fin 800000 → Fin 50000, ∀ e : Fin 800000, (x6 (ix1 e)).toInt = ((s e).val : ℤ))
    ∧ (∃ d : Fin 800000 → Fin 50000, ∀ e : Fin 800000, (x7 (ix1 e)).toInt = ((d e).val : ℤ)) := by
  have h0 := congrFun h ix0
  dsimp only [fn, fn_part1, fn_part2] at h0
  obtain ⟨h0, c10⟩ := vand _ _ _ h0
  obtain ⟨h0, c9⟩ := vand _ _ _ h0
  obtain ⟨h0, c8⟩ := vand _ _ _ h0
  obtain ⟨h0, c7⟩ := vand _ _ _ h0
  obtain ⟨h0, c6⟩ := vand _ _ _ h0
  obtain ⟨h0, c5⟩ := vand _ _ _ h0
  obtain ⟨h0, c4⟩ := vand _ _ _ h0
  obtain ⟨h0, c3⟩ := vand _ _ _ h0
  obtain ⟨c1, c2⟩ := vand _ _ _ h0
  exact ⟨float_all x0 _ _ _ c1, float_all x1 _ _ _ c2, float_all x2 _ _ _ c3, float_all x3 _ _ _ c4,
    float_all x4 _ _ _ c5, float_all x5 _ _ _ c6,
    nodes_of_bounds x6 (int_ge_all x6 _ _ _ c7) (int_lt_all x6 _ _ _ c8),
    nodes_of_bounds x7 (int_ge_all x7 _ _ _ c9) (int_lt_all x7 _ _ _ c10)⟩

end Cert.PreFacts

end
-- ==== Proof.KPieces.lean ====
/-
  What the kernel body leaves behind at a grid point, case by case, as the payload terms of its stores.
  The scratch row carries the running sum between points: at a middle point and at the last point it ends at the
  update of what the point before left; at the first point it is first set to the zero row and then updated, so it
  ends at the update of the zero row. At the last point the result block is the second layer's term of the scratch
  row as just updated.
-/
import proofs.«428738_j81819126989161_3_alg».proof.Proof.Gen.KernelIdeal.Value
import Idealize.ShloMosaic.Lib.Pipeline.Value
import Idealize.ShloMosaic.Lib.Tactic

set_option maxRecDepth 16384

noncomputable section

namespace Cert.KPieces

open Cert.KernelIdeal Cert.KernelIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz1 : (![0] : Fin 1 → Nat) = fun _ => 0 := funext fun a => by fin_cases a <;> rfl

section
variable (c : Dev nD) (i : grid0.Coords) (arg1 : Memref sig .tc .vmem S5000x128 .f32) (harg1 : arg1.IsWhole)
  (arg2 : Memref sig .tc .vmem S5000x1 .f32) (harg2 : arg2.IsWhole) (arg3 : Memref sig .tc .vmem S5000x1 .f32) (harg3 : arg3.IsWhole)
  (arg4 : Memref sig .tc .vmem S128x128 .f32) (harg4 : arg4.IsWhole) (arg5 : Memref sig .tc .vmem S128 .f32) (harg5 : arg5.IsWhole)
  (arg6 : Memref sig .tc .vmem S128x64 .f32) (harg6 : arg6.IsWhole) (arg7 : Memref sig .tc .vmem S64 .f32) (harg7 : arg7.IsWhole)
  (arg8 : Memref sig .tc .vmem S64 .f32) (harg8 : arg8.IsWhole) (arg9 : Memref sig .tc .vmem S1x128 .f32) (harg9 : arg9.IsWhole)
  (x0 : Vec F S5000x128 .f32) (x1 : Vec F S5000x1 .f32) (x2 : Vec F S5000x1 .f32) (x3 : Vec F S128x128 .f32) (x4 : Vec F S128 .f32)
  (x5 : Vec F S128x64 .f32) (x6 : Vec F S64 .f32) (xs0 : Vec F S1x128 .f32)

/-- At a middle point the scratch ends at the update of what the point before left. -/
theorem sout_B (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 x5 x6 xs0 = k0_pay2 x0 x1 x3 x4 xs0 x2 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 x6 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S128x128) hz2, View.ld_unit_zero (S := S128) hz1, View.ld_unit_zero (S := S1x128) hz2, View.ld_unit_zero (S := S128x64) hz2, View.ld_unit_zero (S := S64) hz1]

/-- At the last point the scratch ends at the same update. -/
theorem sout_C (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x0 x1 x2 x3 x4 x5 x6 xs0 = k0_pay2 x0 x1 x3 x4 xs0 x2 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S128x128) hz2, View.ld_unit_zero (S := S128) hz1, View.ld_unit_zero (S := S1x128) hz2, View.ld_unit_zero (S := S128x64) hz2, View.ld_unit_zero (S := S64) hz1]

/-- At the first point the scratch is reset and then updated: the update of the zero row. -/
theorem sout_A (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 x5 x6 = k0_pay2 x0 x1 x3 x4 (k0_pay1 (F := F)) x2 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S128x128) hz2, View.ld_unit_zero (S := S128) hz1, View.ld_unit_zero (S := S1x128) hz2, View.ld_unit_zero (S := S128x64) hz2, View.ld_unit_zero (S := S64) hz1]

/-- At the last point the result block is the second layer applied to the updated scratch. -/
theorem out_C (hc0 : ¬cond0_0 i) (hc1 : cond0_1 i) :
    out0_C_7 c i arg1 harg1 arg2 harg2 arg3 harg3 arg4 harg4 arg5 harg5 arg6 harg6 arg7 harg7 arg8 harg8 arg9 harg9 hc0 hc1 x0 x1 x2 x3 x4 x5 x6 xs0 = k0_pay3 (k0_pay2 x0 x1 x3 x4 xs0 x2) x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero hz1]
  simp only [View.readCov_unit_zero (S := S1x128) _ hz2, View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S128x128) hz2, View.ld_unit_zero (S := S128) hz1, View.ld_unit_zero (S := S1x128) hz2, View.ld_unit_zero (S := S128x64) hz2, View.ld_unit_zero (S := S64) hz1]
end
end Cert.KPieces
end
-- ==== Proof.KArgs.lean ====
/-
  Names for the arrays the kernel's proof speaks of, at the extended reals: the eight inputs as the memory
  holds them at launch, and the three arrays the host computes for the kernel before its one call
  (the aggregated rows, the norm as a column, and the per-node weight as a column).
-/
import proofs.«428738_j81819126989161_3_alg».proof.Proof.Gen.KernelIdeal.Frame

noncomputable section

namespace Cert.KArgs

open Cert.KernelIdeal Cert.KernelIdeal.Gen Idealize.ShloMosaic Idealize.ShloMosaic.TcCoe Idealize.SL.Sem

variable (m : (ℓ : Loc nD τ sig) → Buf (Elt Ideal) ℓ) (c : Dev nD)

/-- The node features, [50000, 128]. -/
abbrev feat : FVec Ideal S50000x128 .f32 := m ((c : Thread nD τ).loc main_arg0)
/-- The node norms, [50000]. -/
abbrev nrm : FVec Ideal S50000 .f32 := m ((c : Thread nD τ).loc main_arg1)
/-- The first layer's weights, [128, 128]. -/
abbrev w1 : FVec Ideal S128x128 .f32 := m ((c : Thread nD τ).loc main_arg2)
/-- The first layer's bias, [128]. -/
abbrev bias1 : FVec Ideal S128 .f32 := m ((c : Thread nD τ).loc main_arg3)
/-- The second layer's weights, [128, 64]. -/
abbrev w2 : FVec Ideal S128x64 .f32 := m ((c : Thread nD τ).loc main_arg4)
/-- The second layer's bias, [64]. -/
abbrev bias2 : FVec Ideal S64 .f32 := m ((c : Thread nD τ).loc main_arg5)
/-- The edges' sources, [800000]. -/
abbrev srcv : IVec S800000 32 := m ((c : Thread nD τ).loc main_arg6)
/-- The edges' destinations, [800000]. -/
abbrev dstv : IVec S800000 32 := m ((c : Thread nD τ).loc main_arg7)

/-- The rows aggregated at the destinations, as the call finds them, [50000, 128]. -/
abbrev aggArr : FVec Ideal S50000x128 .f32 := V m c main_v12
/-- The norms as a column, as the call finds them, [50000, 1]. -/
abbrev nrmCol : FVec Ideal S50000x1 .f32 := V m c main_v0
/-- The per-node weights as a column, as the call finds them, [50000, 1]. -/
abbrev wCol : FVec Ideal S50000x1 .f32 := V m c main_v25

end Cert.KArgs

end
-- ==== Proof.KPay.lean ====
/-
  The three terms the kernel body stores, read at an index on the extended reals.

  The reset term is the zero row. The update term of a scratch row acc over a tile is, at column k,
      acc k + Σ_r w r · max (Σ_f (A r f · norm r) · W1 f k + b1 k) 0
  over the tile's five thousand rows r: the row scaling, the product with W1 (a change of float format is the
  identity and a product into a zero accumulator is a plain sum), the bias, the cut at zero, the weight, and the
  sum down the rows. The result term of a scratch row is Σ_k (scratch k · 1/50000) · W2 k j + b2 j, the constant
  being the rational the kernel's literal names.
-/
import proofs.«428738_j81819126989161_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules
noncomputable section
open scoped BigOperators
namespace Cert.KPay
open Cert.KernelIdeal Cert.KernelIdeal.Gen Idealize.ShloMosaic Idealize.ShloMosaic.ValueIdx

/-! ## Layout operations at an index -/

/-- A `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products -/

theorem lhs_a_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_a_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_a_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_a_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first product into the zero accumulator, at `(p, q)`: the sum over the contracted axis. -/
theorem matmul_a_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ f : Fin 128, l (ix2 p f) * r (ix2 f q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_a_0 _ _
    | ⟨1, _⟩ => exact (lhs_a_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_a_0 _ _).trans hk
    | ⟨1, _⟩ => exact rhs_a_1 _ _)
  rw [el, er]

theorem lhs_b_0 (i : S1x64.Idx) (q : dot_S1x128_S128x64_S1x64_1_0_0_1_n_n.contr.Idx) :
    (dot_S1x128_S128x64_S1x64_1_0_0_1_n_n.lhsIdx i q 0).val = (i 0).val := by
  unfold DotDims.lhsIdx
  rw [dif_neg (show ¬(0 : Fin S1x128.rank) ∈ dot_S1x128_S128x64_S1x64_1_0_0_1_n_n.lhsBatch by decide), dif_pos (show (0 : Fin S1x128.rank) ∈ dot_S1x128_S128x64_S1x64_1_0_0_1_n_n.lhsNonContracting by decide)]
  rfl
theorem lhs_b_1 (i : S1x64.Idx) (q : dot_S1x128_S128x64_S1x64_1_0_0_1_n_n.contr.Idx) :
    (dot_S1x128_S128x64_S1x64_1_0_0_1_n_n.lhsIdx i q 1).val = (q ⟨0, by decide⟩).val :=
  dot_S1x128_S128x64_S1x64_1_0_0_1_n_n.lhsIdx_val_of_single rfl i q
theorem rhs_b_0 (i : S1x64.Idx) (q : dot_S1x128_S128x64_S1x64_1_0_0_1_n_n.contr.Idx) :
    (dot_S1x128_S128x64_S1x64_1_0_0_1_n_n.rhsIdx i q 0).val = (q ⟨0, by decide⟩).val :=
  dot_S1x128_S128x64_S1x64_1_0_0_1_n_n.rhsIdx_val_of_single rfl i q
theorem rhs_b_1 (i : S1x64.Idx) (q : dot_S1x128_S128x64_S1x64_1_0_0_1_n_n.contr.Idx) :
    (dot_S1x128_S128x64_S1x64_1_0_0_1_n_n.rhsIdx i q 1).val = (i 1).val := by
  unfold DotDims.rhsIdx
  rw [dif_neg (show ¬(1 : Fin S128x64.rank) ∈ dot_S1x128_S128x64_S1x64_1_0_0_1_n_n.rhsBatch by decide), dif_pos (show (1 : Fin S128x64.rank) ∈ dot_S1x128_S128x64_S1x64_1_0_0_1_n_n.rhsNonContracting by decide)]
  rfl

/-- The second product into the zero accumulator, at `(0, q)`: the sum over the contracted axis. -/
theorem matmul_b_apply (l : FVec Ideal S1x128 .bf16) (r : FVec Ideal S128x64 .bf16) (p : Fin 1) (q : Fin 64) :
    matmul dot_S1x128_S128x64_S1x64_1_0_0_1_n_n none l r (constant (F := Ideal) S1x64 .f32 0x00000000#32) (ix2 p q)
      = ∑ f : Fin 128, l (ix2 p f) * r (ix2 f q) := by
  simp only [matmul]
  rw [Ideal.matmul_constant_zero_apply, ← Equiv.sum_comp (ValueIdx.contrEquiv1 dot_S1x128_S128x64_S1x64_1_0_0_1_n_n 128 rfl rfl).symm]
  refine Finset.sum_congr rfl fun k _ => ?_
  have hk := ValueIdx.contrEquiv1_symm_val dot_S1x128_S128x64_S1x64_1_0_0_1_n_n 128 rfl rfl k
  have el : dot_S1x128_S128x64_S1x64_1_0_0_1_n_n.lhsIdx (ix2 p q) ((ValueIdx.contrEquiv1 dot_S1x128_S128x64_S1x64_1_0_0_1_n_n 128 rfl rfl).symm k) = ix2 p k := funext fun a => Fin.ext (by
    match a with
    | ⟨0, _⟩ => exact lhs_b_0 _ _
    | ⟨1, _⟩ => exact (lhs_b_1 _ _).trans hk)
  have er : dot_S1x128_S128x64_S1x64_1_0_0_1_n_n.rhsIdx (ix2 p q) ((ValueIdx.contrEquiv1 dot_S1x128_S128x64_S1x64_1_0_0_1_n_n 128 rfl rfl).symm k) = ix2 k q := funext fun a => Fin.ext (by
    match a with
    | ⟨0, _⟩ => exact (rhs_b_0 _ _).trans hk
    | ⟨1, _⟩ => exact rhs_b_1 _ _)
  rw [el, er]

/-! ## The sum over the rows -/

/-- The sum over the 5000 rows of a `[5000, 128]` array, at lane `k`. -/
theorem rowsum_apply (src : FVec Ideal S5000x128 .f32) (hφ : FKind.Formats .f32)
    (hacc : (0x00000000#32 : BitVec 32) = 0x00000000#32) (k : Fin 128) :
    multiReduction (F := Ideal) .add [0] S128 src 0x00000000#32 reduces_S5000x128_S128 hφ hacc (ix1 k)
      = ∑ r : Fin 5000, src (ix2 r k) := by
  refine (Ideal.multiReduction_add_single src 0x00000000#32 reduces_S5000x128_S128 hφ hacc (ix1 k)).trans ?_
  refine Finset.sum_congr rfl fun r _ => congrArg src (funext fun a => Fin.ext ?_)
  match a with
  | ⟨0, _⟩ => rfl
  | ⟨1, _⟩ => rfl

/-! ## The payloads -/

/-- The first store writes zeros. -/
theorem pay1_apply (k : Fin 128) : k0_pay1 (F := Ideal) (ix2 (0 : Fin 1) k) = 0 := by
  unfold k0_pay1
  simp only [shapeCast_self]
  exact Ideal.ofBits_zero_f32

/-- The summand of the row sum at row `r`, lane `k`: the row's weight times the rectified affine image of the
    row's scaled features. -/
theorem row_apply (v3 : Vec Ideal S5000x128 .f32) (v5 : Vec Ideal S5000x1 .f32) (v10 : Vec Ideal S128x128 .f32)
    (v13 : Vec Ideal S128 .f32) (v20 : Vec Ideal S5000x1 .f32) (r : Fin 5000) (k : Fin 128) :
    mulf (broadcastTo S5000x128 v20 broadcasts_S5000x1_S5000x128)
        (maximumf
          (addf
            (matmul dot_S5000x128_S128x128_S5000x128_1_0_0_1_n_n none
              (truncf .bf16 (mulf v3 (broadcastTo S5000x128 v5 broadcasts_S5000x1_S5000x128)) bitsLt_bf16_f32)
              (truncf .bf16 v10 bitsLt_bf16_f32) (constant (F := Ideal) S5000x128 .f32 0x00000000#32))
            (broadcastTo S5000x128 (shapeCast S1x128 v13 shapeCasts_S128_S1x128) broadcasts_S1x128_S5000x128))
          (broadcast S5000x128 (Scalar.ofBits (F := Ideal) .f32 0x00000000#32))) (ix2 r k)
      = v20 (ix2 r (0 : Fin 1))
          * max (∑ f : Fin 128, (v3 (ix2 r f) * v5 (ix2 r (0 : Fin 1))) * v10 (ix2 f k) + v13 (ix1 k)) 0 := by
  rw [mulf_apply, maximumf_apply, addf_apply, broadcast_apply, matmul_a_apply]
  rw [broadcastTo_a1_ab_apply v20 broadcasts_S5000x1_S5000x128 r k,
    broadcastTo_1b_ab_apply _ broadcasts_S1x128_S5000x128 r k,
    shapeCast_a_1a_apply v13 shapeCasts_S128_S1x128 (0 : Fin 1) k]
  refine congrArg (fun z => v20 (ix2 r (0 : Fin 1)) * z) ?_
  refine congrArg₂ max (congrArg (fun z => z + v13 (ix1 k)) (Finset.sum_congr rfl fun f _ => ?_)) Ideal.ofBits_zero_f32
  rw [truncf_apply, truncf_apply, mulf_apply, broadcastTo_a1_ab_apply v5 broadcasts_S5000x1_S5000x128 r f]

/-- The second store: the accumulator row plus the weighted sum over the block's rows. -/
theorem pay2_apply (v3 : Vec Ideal S5000x128 .f32) (v5 : Vec Ideal S5000x1 .f32) (v10 : Vec Ideal S128x128 .f32)
    (v13 : Vec Ideal S128 .f32) (v19 : Vec Ideal S1x128 .f32) (v20 : Vec Ideal S5000x1 .f32) (k : Fin 128) :
    k0_pay2 (F := Ideal) v3 v5 v10 v13 v19 v20 (ix2 (0 : Fin 1) k)
      = v19 (ix2 (0 : Fin 1) k)
        + ∑ r : Fin 5000, v20 (ix2 r (0 : Fin 1))
            * max (∑ f : Fin 128, (v3 (ix2 r f) * v5 (ix2 r (0 : Fin 1))) * v10 (ix2 f k) + v13 (ix1 k)) 0 := by
  unfold k0_pay2
  simp only [shapeCast_self]
  rw [addf_apply]
  refine congrArg (fun z => v19 (ix2 (0 : Fin 1) k) + z) ?_
  refine (shapeCast_a_1a_apply _ shapeCasts_S128_S1x128 (0 : Fin 1) k).trans ?_
  refine (rowsum_apply _ _ _ k).trans ?_
  exact Finset.sum_congr rfl fun r _ => row_apply v3 v5 v10 v13 v20 r k

/-- The reciprocal of the node count, as the extended real it names. -/
theorem inv_nodes : Named.named (F := Ideal) Cert.KernelIdeal.κ "inv_50000" (φ := .f32) 0x37A7C5AC#32 = ((1 / 50000 : ℝ) : EReal) :=
  IdealRules.named_const.ideal_named_scalar _ _ _ _ rfl

/-- The third store: the mean row through the second affine map. -/
theorem pay3_apply (v33 : Vec Ideal S1x128 .f32) (v37 : Vec Ideal S128x64 .f32) (v40 : Vec Ideal S64 .f32) (j : Fin 64) :
    k0_pay3 (F := Ideal) v33 v37 v40 (ix1 j)
      = ∑ k : Fin 128, (v33 (ix2 (0 : Fin 1) k) * (((1 / 50000 : ℝ)) : EReal)) * v37 (ix2 k j) + v40 (ix1 j) := by
  unfold k0_pay3
  refine (shapeCast_1a_a_apply _ shapeCasts_S1x64_S64 j).trans ?_
  rw [addf_apply, matmul_b_apply, shapeCast_a_1a_apply v40 shapeCasts_S64_S1x64 (0 : Fin 1) j]
  refine congrArg (fun z => z + v40 (ix1 j)) (Finset.sum_congr rfl fun k _ => ?_)
  rw [truncf_apply, truncf_apply, mulf_apply, broadcast_apply, inv_nodes]

end Cert.KPay
-- ==== Proof.LibScatter.lean ====
/-
  The host's accumulating scatter and its gather READ AT AN INDEX, at the ideal instance, for the two shapes a
  segment sum and a take along axis 0 have: a vector [N] (indices [M, 1], updates [M]) and rows [N, C] (indices
  [M, 1], updates [M, C]). Every lemma is over an arbitrary dimension-number record whose fields are fixed by
  hypotheses, each closed by rfl on a program's own record.

  scatterAdd_vec / scatterAdd_rows: the scatter at an element is the operand's element plus the sum, over the
  updates (rows), of those whose start index read SIGNED is the element's (row) index; scatterAdd_vec_toNat /
  scatterAdd_rows_toNat: the same with the index read unsigned, for 32-bit indices and N < 2³¹. gather_vec /
  gather_rows: the gather at a position whose start index is in range is the operand at that index.
  pad_vec_apply / pad_rows_apply: a padding after the end (of the rows) at an index; concatenate_vec_left /
  concatenate_vec_right: two vectors end to end at an index. sum_idx1, sum_fin_split, sum_fin_padded: a sum over a
  rank-1 index set, over a range cut in two, over a padded range.
-/
import Idealize.ShloMosaic.Lib.ValueIdx
import Idealize.ShloMosaic.Lib.StableHlo.Predicate
import Idealize.ShloMosaic.Lib.Pipeline.Value
import Mathlib.Algebra.BigOperators.Fin

noncomputable section

open scoped BigOperators

namespace Cert.LibScatter

open Idealize.ShloMosaic Idealize.ShloMosaic.ValueIdx

/-! ## Where an update lands: the vector shape -/

/-- For an operand [N], scatter indices [M, 1] and updates [M] (one inserted window axis, no update window axis):
    update j lands on element i exactly when its start index, read signed, is i. -/
theorem resultIdx?_vec {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (j : Fin M) (i : Fin N) :
    d.resultIdx? (ix1 j) idx = some (ix1 i) ↔ (idx (ix2 j (0 : Fin 1))).toInt = (i.val : ℤ) := by
  obtain ⟨uw, iw, sd, iv, wf⟩ := d
  simp only at h1 h2 h3 h4
  subst h1 h2 h3 h4
  have hstart : ∀ a, ScatterDims.start ⟨[], [0], [0], 1, wf⟩ (ix1 j) idx a = (idx (ix2 j (0 : Fin 1))).toInt := by
    intro a
    obtain rfl : a = 0 := Subsingleton.elim _ _
    unfold ScatterDims.start
    rw [dif_pos (List.mem_singleton.mpr rfl)]
    congr 2
    funext b
    match b with
    | ⟨0, _⟩ => rfl
    | ⟨1, _⟩ => rfl
  have hwin : ∀ a, ScatterDims.window ⟨[], [0], [0], 1, wf⟩ (ix1 j) a = 0 := by
    intro a
    obtain rfl : a = 0 := Subsingleton.elim _ _
    unfold ScatterDims.window
    rw [dif_neg (by simp [ScatterDims.sKept, Shape.kept])]
  unfold ScatterDims.resultIdx?
  simp only [hstart, hwin, Nat.cast_zero, add_zero]
  constructor
  · intro h
    split_ifs at h with hc
    have h0 := congrArg Fin.val (congrFun (Option.some.inj h) 0)
    have hc0 := hc 0
    simp only [Matrix.cons_val_zero] at hc0
    change (idx (ix2 j (0 : Fin 1))).toInt.toNat = i.val at h0
    omega
  · intro h
    have hc : ∀ a : Fin 1, 0 ≤ (idx (ix2 j (0 : Fin 1))).toInt ∧ (idx (ix2 j (0 : Fin 1))).toInt < ((![N] a : ℕ) : ℤ) := by
      intro a
      obtain rfl : a = 0 := Subsingleton.elim _ _
      simp only [Matrix.cons_val_zero]
      have := i.isLt
      omega
    rw [dif_pos hc]
    congr 1
    funext a
    obtain rfl : a = 0 := Subsingleton.elim _ _
    apply Fin.ext
    change (idx (ix2 j (0 : Fin 1))).toInt.toNat = i.val
    omega

/-! ## Where an update lands: rows -/

section Rows
variable {N C M w : Nat} (d : ScatterDims ⟨2, ![N, C]⟩ ⟨2, ![M, 1]⟩ ⟨2, ![M, C]⟩)
  (h1 : d.updateWindowDims = [1]) (h2 : d.insertedWindowDims = [0]) (h3 : d.scatterDimsToOperandDims = [0])
  (h4 : d.indexVectorDim = 1) (idx : IVec ⟨2, ![M, 1]⟩ w) (j : Fin M) (c' : Fin C)
include h1 h2 h3 h4

/-- On the row axis an update's window starts at its start index, read signed. -/
theorem start_rows_zero : d.start (ix2 j c') idx 0 = (idx (ix2 j (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- On the column axis, which the start index map does not name, the window starts at 0. -/
theorem start_rows_one : d.start (ix2 j c') idx 1 = 0 := by
  obtain ⟨uw, iw, sd, iv, wf⟩ := d
  simp only at h1 h2 h3 h4
  subst h1 h2 h3 h4
  unfold ScatterDims.start
  rw [dif_neg (by simp)]

/-- The row axis is an inserted window axis: the window coordinate there is 0. -/
theorem window_rows_zero : d.window (ix2 j c') 0 = 0 := by
  obtain ⟨uw, iw, sd, iv, wf⟩ := d
  simp only at h1 h2 h3 h4
  subst h1 h2 h3 h4
  unfold ScatterDims.window
  rw [dif_neg (by simp [ScatterDims.sKept, Shape.kept])]

/-- On the column axis the window coordinate is the update's column. -/
theorem window_rows_one : d.window (ix2 j c') 1 = c'.val := by
  obtain ⟨uw, iw, sd, iv, wf⟩ := d
  simp only at h1 h2 h3 h4
  subst h1 h2 h3 h4
  unfold ScatterDims.window
  rw [dif_pos (by simp [ScatterDims.sKept, Shape.kept])]
  rfl

/-- For an operand [N, C], scatter indices [M, 1] and updates [M, C] (the row axis inserted, the column axis the
    update window): update (j, c') lands on element (i, c) exactly when its start index, read signed, is i and
    c' = c. -/
theorem resultIdx?_rows (i : Fin N) (c : Fin C) :
    d.resultIdx? (ix2 j c') idx = some (ix2 i c) ↔ (idx (ix2 j (0 : Fin 1))).toInt = (i.val : ℤ) ∧ c' = c := by
  have s0 := start_rows_zero d h1 h2 h3 h4 idx j c'
  have s1 := start_rows_one d h1 h2 h3 h4 idx j c'
  have w0 := window_rows_zero d h1 h2 h3 h4 j c'
  have w1 := window_rows_one d h1 h2 h3 h4 j c'
  unfold ScatterDims.resultIdx?
  constructor
  · intro h
    split_ifs at h with hc
    have e := Option.some.inj h
    have e0 : (d.start (ix2 j c') idx 0 + (d.window (ix2 j c') 0 : ℕ)).toNat = i.val :=
      congrArg Fin.val (congrFun e 0)
    have e1 : (d.start (ix2 j c') idx 1 + (d.window (ix2 j c') 1 : ℕ)).toNat = c.val :=
      congrArg Fin.val (congrFun e 1)
    have hc0 := (hc 0).1
    rw [s0, w0] at e0 hc0
    rw [s1, w1] at e1
    refine ⟨by omega, Fin.ext (by omega)⟩
  · rintro ⟨ht, rfl⟩
    have hi := i.isLt
    have hc' := c'.isLt
    have hc : ∀ a : Fin 2, 0 ≤ d.start (ix2 j c') idx a + (d.window (ix2 j c') a : ℕ) ∧
        d.start (ix2 j c') idx a + (d.window (ix2 j c') a : ℕ) < ((![N, C] a : ℕ) : ℤ) := by
      refine Fin.forall_fin_two.mpr ⟨?_, ?_⟩
      · rw [s0, w0]; simp only [Matrix.cons_val_zero]; omega
      · rw [s1, w1]; simp only [Matrix.cons_val_one, Matrix.cons_val_zero]; omega
    rw [dif_pos hc]
    congr 1
    funext a
    apply Fin.ext
    revert a
    refine Fin.forall_fin_two.mpr ⟨?_, ?_⟩
    · show (d.start (ix2 j c') idx 0 + (d.window (ix2 j c') 0 : ℕ)).toNat = i.val
      rw [s0, w0]; omega
    · show (d.start (ix2 j c') idx 1 + (d.window (ix2 j c') 1 : ℕ)).toNat = c'.val
      rw [s1, w1]; omega

end Rows

/-! ## Sums over a rank-1 index set -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## The accumulating scatter read at an index -/

/-- (S1) The accumulating scatter into a VECTOR [N] at scatter indices [M, 1] with updates [M], read at element i:
    the operand's element plus the sum of the updates whose start index, read signed and not clamped, is i (an
    update whose index is outside the operand contributes nothing). -/
theorem scatterAdd_vec {φ : FTy} {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ w)
    (upd : FVec Ideal ⟨1, ![M]⟩ φ) (i : Fin N) :
    Host.scatterAdd (F := Ideal) d x idx upd (ix1 i) =
      x (ix1 i) + ∑ j : Fin M, if (idx (ix2 j (0 : Fin 1))).toInt = (i.val : ℤ) then upd (ix1 j) else 0 := by
  show x (ix1 i) + ∑ j ∈ Finset.univ.filter (fun j => d.resultIdx? j idx = some (ix1 i)), upd j = _
  congr 1
  rw [Finset.sum_filter, sum_idx1]
  exact Finset.sum_congr rfl fun j _ => if_congr (resultIdx?_vec d h1 h2 h3 h4 idx j i) rfl rfl

/-- (S2) The accumulating scatter of ROWS into [N, C] at scatter indices [M, 1] with updates [M, C], read at
    element (i, c): the operand's element plus the sum over the updates' rows whose start index, read signed and
    not clamped, is i, of their column c. -/
theorem scatterAdd_rows {φ : FTy} {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ w)
    (upd : FVec Ideal ⟨2, ![M, C]⟩ φ) (i : Fin N) (c : Fin C) :
    Host.scatterAdd (F := Ideal) d x idx upd (ix2 i c) =
      x (ix2 i c) + ∑ j : Fin M, if (idx (ix2 j (0 : Fin 1))).toInt = (i.val : ℤ) then upd (ix2 j c) else 0 := by
  show x (ix2 i c) + ∑ jj ∈ Finset.univ.filter (fun jj => d.resultIdx? jj idx = some (ix2 i c)), upd jj = _
  congr 1
  rw [Finset.sum_filter, sum_idx2]
  refine Finset.sum_congr rfl fun j _ => ?_
  rw [Finset.sum_congr rfl fun b _ => if_congr (resultIdx?_rows d h1 h2 h3 h4 idx j b i c) rfl rfl]
  by_cases ht : (idx (ix2 j (0 : Fin 1))).toInt = (i.val : ℤ)
  · simp only [ht, true_and, if_true]
    rw [Finset.sum_ite_eq' Finset.univ c (fun b => upd (ix2 j b)), if_pos (Finset.mem_univ c)]
  · simp only [ht, false_and, if_false, Finset.sum_const_zero]

/-! ## The same with the start index read unsigned -/

/-- A word reads i signed exactly when it reads i unsigned, for i below half the word range (a word at or above
    half the range reads negative signed). -/
theorem toInt_eq_natCast_iff {w : Nat} (a : BitVec w) (i : Nat) (hi : 2 * i < 2 ^ w) :
    a.toInt = (i : ℤ) ↔ a.toNat = i := by
  have ha := a.isLt
  rw [BitVec.toInt_eq_toNat_cond]
  split_ifs with h
  · exact Nat.cast_inj
  · constructor
    · intro e
      have : (2 ^ w : ℤ) = ((2 ^ w : ℕ) : ℤ) := by push_cast; rfl
      omega
    · intro e
      omega

/-- (S1') The accumulating scatter into a vector [N], N < 2³¹, at 32-bit indices, read at element i, with the
    start index read UNSIGNED: an index at or above 2³¹ is negative read signed and lands nowhere, and it is not
    i read unsigned either. -/
theorem scatterAdd_vec_toNat {φ : FTy} {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ 32)
    (upd : FVec Ideal ⟨1, ![M]⟩ φ) (hN : N < 2 ^ 31) (i : Fin N) :
    Host.scatterAdd (F := Ideal) d x idx upd (ix1 i) =
      x (ix1 i) + ∑ j : Fin M, if (idx (ix2 j (0 : Fin 1))).toNat = i.val then upd (ix1 j) else 0 := by
  rw [scatterAdd_vec d h1 h2 h3 h4]
  congr 1
  refine Finset.sum_congr rfl fun j _ => if_congr ?_ rfl rfl
  exact toInt_eq_natCast_iff _ _ (by have := i.isLt; omega)

/-- (S2') The accumulating scatter of rows into [N, C], N < 2³¹, at 32-bit indices, read at element (i, c), with
    the start index read UNSIGNED. -/
theorem scatterAdd_rows_toNat {φ : FTy} {N C M : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ 32)
    (upd : FVec Ideal ⟨2, ![M, C]⟩ φ) (hN : N < 2 ^ 31) (i : Fin N) (c : Fin C) :
    Host.scatterAdd (F := Ideal) d x idx upd (ix2 i c) =
      x (ix2 i c) + ∑ j : Fin M, if (idx (ix2 j (0 : Fin 1))).toNat = i.val then upd (ix2 j c) else 0 := by
  rw [scatterAdd_rows d h1 h2 h3 h4]
  congr 1
  refine Finset.sum_congr rfl fun j _ => if_congr ?_ rfl rfl
  exact toInt_eq_natCast_iff _ _ (by have := i.isLt; omega)

/-! ## The gather read at an index -/

/-- (G1) The gather from a VECTOR [N], N < 2³¹, at 32-bit start indices [M, 1] (the operand's one axis collapsed
    and start-indexed, the index vector on axis 1), read at result position j whose start index is in range: the
    operand at that index (in range nothing is clamped). -/
theorem gather_vec {α : Type} {N M : Nat} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ 32) (hN : N < 2 ^ 31) (j : Fin M)
    (hr : (idx (ix2 j (0 : Fin 1))).toNat < N) :
    Host.gather d x idx (ix1 j) = x (ix1 ⟨(idx (ix2 j (0 : Fin 1))).toNat, hr⟩) := by
  have e1 : (ix1 j : (⟨1, ![M]⟩ : Shape).Idx) = Shape.Idx.ofFin j := by
    funext a
    obtain rfl : a = 0 := Subsingleton.elim _ _
    rfl
  have e2 : StableHlo.Predicate.ixP j = ix2 j (0 : Fin 1) := by
    funext b
    match b with
    | ⟨0, _⟩ => rfl
    | ⟨1, _⟩ => rfl
  rw [e1, StableHlo.Predicate.gather_take d hcoll hob hsim hivd x idx j (by omega)]
  congr 1
  funext a
  obtain rfl : a = 0 := Subsingleton.elim _ _
  apply Fin.ext
  show min (idx (StableHlo.Predicate.ixP j)).toInt.toNat (N - 1) = (idx (ix2 j (0 : Fin 1))).toNat
  rw [e2, StableHlo.Predicate.toInt_eq_toNat_of_lt (by omega), Int.toNat_natCast]
  omega

section GatherRows
variable {N C M w : Nat} (d : GatherDims ⟨2, ![N, C]⟩ ⟨2, ![M, 1]⟩ ⟨2, ![M, C]⟩)
  (hoff : d.offsetDims = [1]) (hcoll : d.collapsedSliceDims = [0]) (hob : d.operandBatchingDims = [])
  (hsim : d.startIndexMap = [0]) (hivd : d.indexVectorDim = 1) (j : Fin M) (c : Fin C)
include hoff hcoll hob hsim hivd

/-- Result position (j, c) reads its start index at (j, 0) of the start indices. -/
theorem siIdx_rows (k : Fin d.startIndexMap.length) : d.siIdx (ix2 j c) k = ix2 j (0 : Fin 1) := by
  obtain ⟨od, cd, ob, sb, sm, iv, ss, wf⟩ := d
  simp only at hoff hcoll hob hsim hivd
  subst hoff hcoll hob hsim hivd
  have hk : k.val = 0 := by
    have := k.isLt
    simpa using this
  funext b
  apply Fin.ext
  match b with
  | ⟨0, _⟩ => rfl
  | ⟨1, _⟩ => exact hk

/-- On the column axis the offset coordinate is the result's column. -/
theorem offCoord_rows_one : d.offCoord (ix2 j c) 1 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end GatherRows

/-- (G2) The gather of ROWS from [N, C], N < 2³¹, at 32-bit start indices [M, 1] (the row axis collapsed and
    start-indexed, the column axis the one offset axis, the index vector on axis 1), read at (j, c) when row j's
    start index is in range: the operand at that row, column c. -/
theorem gather_rows {α : Type} {N C M : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ 32) (hN : N < 2 ^ 31) (j : Fin M) (c : Fin C)
    (hr : (idx (ix2 j (0 : Fin 1))).toNat < N) :
    Host.gather d x idx (ix2 j c) = x (ix2 ⟨(idx (ix2 j (0 : Fin 1))).toNat, hr⟩ c) := by
  have hb : ∀ a, a ∉ d.operandBatchingDims := by
    intro a
    rw [hob]
    exact List.not_mem_nil
  have hsl : d.sliceSizes 0 = 1 := d.slice_collapsed 0 (by rw [hcoll]; exact List.mem_singleton.mpr rfl)
  unfold Host.gather
  congr 1
  funext a
  apply Fin.ext
  revert a
  refine Fin.forall_fin_two.mpr ⟨?_, ?_⟩
  · show d.start (ix2 j c) idx 0 + d.batchCoord (ix2 j c) 0 + d.offCoord (ix2 j c) 0
      = (idx (ix2 j (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_rows d hoff hcoll hob hsim hivd, hsl,
      StableHlo.Predicate.toInt_eq_toNat_of_lt (by omega), Int.toNat_natCast]
    show min (idx (ix2 j (0 : Fin 1))).toNat (N - 1) + 0 + 0 = _
    omega
  · show d.start (ix2 j c) idx 1 + d.batchCoord (ix2 j c) 1 + d.offCoord (ix2 j c) 1 = c.val
    rw [d.batchCoord_eq_zero _ _ (hb _), offCoord_rows_one d hoff hcoll hob hsim hivd]
    unfold GatherDims.start
    rw [dif_neg (by rw [hsim]; simp)]
    omega

/-! ## A padding and a two-piece concatenation along axis 0, read at an index -/

/-- (P) A VECTOR [N] padded after its end only (low 0, interior 0) to [T], read at k: the vector below its extent,
    the padding scalar at or above it. -/
theorem pad_vec_apply {α : Type} {N T : Nat} (hi : Fin 1 → Nat) (x : (⟨1, ![N]⟩ : Shape).Idx → α)
    (v : (⟨0, ![]⟩ : Shape).Idx → α) (h : (⟨1, ![N]⟩ : Shape).Pads ![0] hi ![0] ⟨1, ![T]⟩)
    (hu : 0 < (⟨0, ![]⟩ : Shape).numel) (k : Fin T) :
    pad ⟨1, ![T]⟩ ![0] hi ![0] x v h hu (ix1 k) = if hk : k.val < N then x (ix1 ⟨k.val, hk⟩) else v ix0 := by
  unfold pad
  split_ifs with hin hk hk
  · congr 1
    funext a
    obtain rfl : a = 0 := Subsingleton.elim _ _
    apply Fin.ext
    show (k.val - 0) / (0 + 1) = k.val
    omega
  · exfalso
    have := (hin 0).2.2
    change (k.val - 0) / (0 + 1) < N at this
    omega
  · exfalso
    refine hin fun a => ?_
    obtain rfl : a = 0 := Subsingleton.elim _ _
    show 0 ≤ k.val ∧ (k.val - 0) % (0 + 1) = 0 ∧ (k.val - 0) / (0 + 1) < N
    omega
  · exact congrArg v (eq_ix0 _)

/-- (P) ROWS [N, C] padded after the last row only (low 0, interior 0; the column axis not padded) to [T, C], read
    at (k, c): the rows below their extent, the padding scalar at or above it. -/
theorem pad_rows_apply {α : Type} {N C T : Nat} (hi : Fin 2 → Nat) (x : (⟨2, ![N, C]⟩ : Shape).Idx → α)
    (v : (⟨0, ![]⟩ : Shape).Idx → α) (h : (⟨2, ![N, C]⟩ : Shape).Pads ![0, 0] hi ![0, 0] ⟨2, ![T, C]⟩)
    (hu : 0 < (⟨0, ![]⟩ : Shape).numel) (k : Fin T) (c : Fin C) :
    pad ⟨2, ![T, C]⟩ ![0, 0] hi ![0, 0] x v h hu (ix2 k c)
      = if hk : k.val < N then x (ix2 ⟨k.val, hk⟩ c) else v ix0 := by
  have hc := c.isLt
  unfold pad
  split_ifs with hin hk hk
  · congr 1
    funext a
    apply Fin.ext
    revert a
    refine Fin.forall_fin_two.mpr ⟨?_, ?_⟩
    · show (k.val - 0) / (0 + 1) = k.val
      omega
    · show (c.val - 0) / (0 + 1) = c.val
      omega
  · exfalso
    have := (hin 0).2.2
    change (k.val - 0) / (0 + 1) < N at this
    omega
  · exfalso
    refine hin (Fin.forall_fin_two.mpr ⟨?_, ?_⟩)
    · show 0 ≤ k.val ∧ (k.val - 0) % (0 + 1) = 0 ∧ (k.val - 0) / (0 + 1) < N
      omega
    · show 0 ≤ c.val ∧ (c.val - 0) % (0 + 1) = 0 ∧ (c.val - 0) / (0 + 1) < C
      omega
  · exact congrArg v (eq_ix0 _)

/-- (C) Two vectors [N₁], [N₂] concatenated to [T], read at a position below the first extent: the first. -/
theorem concatenate_vec_left {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : k.val < N₁) :
    concatenate ⟨1, ![T]⟩ 0 [⟨⟨1, ![N₁]⟩, a⟩, ⟨⟨1, ![N₂]⟩, b⟩] h (ix1 k) = a (ix1 ⟨k.val, hk⟩) := by
  refine concatenate_pair_apply_left 0 a b h (ix1 k) rfl (ix1 ⟨k.val, hk⟩) fun c => ?_
  obtain rfl : c = 0 := Subsingleton.elim _ _
  rfl

/-- (C) Two vectors [N₁], [N₂] concatenated to [T], read at a position at or above the first extent: the second,
    the first extent less. -/
theorem concatenate_vec_right {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : N₁ ≤ k.val)
    (hk2 : k.val - N₁ < N₂) :
    concatenate ⟨1, ![T]⟩ 0 [⟨⟨1, ![N₁]⟩, a⟩, ⟨⟨1, ![N₂]⟩, b⟩] h (ix1 k) = b (ix1 ⟨k.val - N₁, hk2⟩) := by
  refine concatenate_pair_apply_right 0 a b h (ix1 k) rfl rfl (ix1 ⟨k.val - N₁, hk2⟩) (fun c hc => ?_) ?_
  · obtain rfl : c = 0 := Subsingleton.elim _ _
    exact absurd rfl hc
  · show k.val - N₁ + N₁ = k.val
    omega

/-! ## Sums over a range cut in two, and over a padded range -/

/-- A sum over [0, T) with T = N₁ + N₂ is the sum over [0, N₁) plus the sum over [N₁, T), the latter re-indexed
    from 0. -/
theorem sum_fin_split {A : Type*} [AddCommMonoid A] {N₁ N₂ T : Nat} (hT : T = N₁ + N₂) (f : Fin T → A) :
    ∑ k : Fin T, f k
      = ∑ k : Fin N₁, f ⟨k.val, by have := k.isLt; omega⟩ + ∑ k : Fin N₂, f ⟨N₁ + k.val, by have := k.isLt; omega⟩ := by
  subst hT
  rw [Fin.sum_univ_add]
  rfl

/-- A sum over a padded range [0, T) of a family that is zero at and above N ≤ T is the sum over [0, N). -/
theorem sum_fin_padded {A : Type*} [AddCommMonoid A] {N T : Nat} (hNT : N ≤ T) (f : Fin N → A) :
    ∑ k : Fin T, (if hk : k.val < N then f ⟨k.val, hk⟩ else 0) = ∑ k : Fin N, f k := by
  obtain ⟨H, rfl⟩ := Nat.exists_eq_add_of_le hNT
  rw [Fin.sum_univ_add]
  have h2 : ∑ k : Fin H, (if hk : (Fin.natAdd N k).val < N then f ⟨(Fin.natAdd N k).val, hk⟩ else 0) = 0 :=
    Finset.sum_eq_zero fun k _ => dif_neg (by simp)
  rw [h2, add_zero]
  refine Finset.sum_congr rfl fun k _ => ?_
  rw [dif_pos (by simp)]
  rfl

end Cert.LibScatter
-- ==== Proof.KHost.lean ====
/-
  What the host computes for the kernel before its one call, read at an index.

  The aggregated rows: the features scaled row by row by the norm, the rows of the edges' sources gathered, and
  summed at the edges' destinations:  A i f = Σ_{e : d e = i} norm (s e) · feat (s e) f.
  The norm column: the norm vector reshaped to [50000, 1].
  The weight column: the destinations' norms gathered, summed at the sources, times the norm, reshaped:
  w j = norm j · Σ_{e : s e = j} norm (d e).
  A start index in range reads a node's number signed, so it is not negative and the gathers' wrap (the extent
  added to a negative index) leaves it; a scatter's update lands on the element its start index names.
-/
import proofs.«428738_j81819126989161_3_alg».proof.Proof.KArgs
import proofs.«428738_j81819126989161_3_alg».proof.Proof.Spec
import proofs.«428738_j81819126989161_3_alg».proof.Proof.LibScatter
import Idealize.ShloMosaic.Lib.StableHlo.Run
import Idealize.ShloMosaic.Lib.ValueIdx
import Idealize.ShloMosaic.Lib.Pipeline.Value
import Idealize.ShloMosaic.Lib.StableHlo.Predicate

noncomputable section

namespace Cert.KHost

open Cert.KernelIdeal Cert.KernelIdeal.Gen Cert.KArgs Idealize.ShloMosaic Idealize.ShloMosaic.TcCoe Idealize.ShloMosaic.ValueIdx Idealize.SL.Sem

variable (m : (ℓ : Loc nD τ sig) → Buf (Elt Ideal) ℓ) (c : Dev nD) (s d : Fin 800000 → Fin 50000)

open scoped BigOperators

/-! ## Reshapes and broadcasts between a vector and a one-column array, read at an index -/

section Generic
variable {α : Type}

/-- A vector [n] cast to a column [n, 1] reads, at (i, 0), the vector at i. -/
private theorem col_of_vec {n : Nat} (x : (⟨1, ![n]⟩ : Shape).Idx → α)
    (h : (⟨1, ![n]⟩ : Shape).ShapeCasts ⟨2, ![n, 1]⟩) (i : Fin n) :
    shapeCast ⟨2, ![n, 1]⟩ x h (ix2 i (0 : Fin 1)) = x (ix1 i) :=
  shapeCast_apply x h _ _ (by
    rw [Shape.rowMajor_val_two, Shape.rowMajor_val_one]
    show i.val = i.val * 1 + 0
    omega)

/-- A column [n, 1] cast to a vector [n] reads, at i, the column at (i, 0). -/
private theorem vec_of_col {n : Nat} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

private theorem ix2_zero_eq {n : Nat} (p : Fin n) :
    (ix2 p (0 : Fin 1) : (⟨2, ![n, 1]⟩ : Shape).Idx) = StableHlo.Predicate.ixP p := by
  funext b
  match b with
  | ⟨0, _⟩ => rfl
  | ⟨1, _⟩ => rfl

private theorem ix2_eq_ij {n k : Nat} (p : Fin n) (q : Fin k) :
    (ix2 p q : (⟨2, ![n, k]⟩ : Shape).Idx) = StableHlo.Predicate.ij p q := by
  funext b
  match b with
  | ⟨0, _⟩ => rfl
  | ⟨1, _⟩ => rfl

private theorem ix1_eq_ofFin {n : Nat} (p : Fin n) :
    (ix1 p : (⟨1, ![n]⟩ : Shape).Idx) = Shape.Idx.ofFin p := by
  funext a
  obtain rfl : a = 0 := Subsingleton.elim _ _
  rfl

/-- A vector [n] broadcast to a column [n, 1] reads, at (p, 0), the vector at p. -/
private theorem bcast_col {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  rw [ix2_zero_eq, ix1_eq_ofFin]
  exact StableHlo.Predicate.bcast_col1 h v p

/-- A column [n, 1] broadcast along its unit axis to [n, k] reads, at (p, q), the column at (p, 0). -/
private theorem bcast_rows_of_col {n k : Nat} (h : (⟨2, ![n, 1]⟩ : Shape).BroadcastsInDim ⟨2, ![n, k]⟩ ![0, 1])
    (v : (⟨2, ![n, 1]⟩ : Shape).Idx → α) (p : Fin n) (q : Fin k) :
    broadcastInDim ⟨2, ![n, k]⟩ ![0, 1] h v (ix2 p q) = v (ix2 p (0 : Fin 1)) := by
  rw [ix2_eq_ij, ix2_zero_eq]
  exact StableHlo.Predicate.bcast_of_col h v p q

/-- The gather of rows at a position whose start index reads p unsigned: row p. -/
private theorem gather_rows_at {N C M : Nat} (gd : GatherDims ⟨2, ![N, C]⟩ ⟨2, ![M, 1]⟩ ⟨2, ![M, C]⟩)
    (hoff : gd.offsetDims = [1]) (hcoll : gd.collapsedSliceDims = [0]) (hob : gd.operandBatchingDims = [])
    (hsim : gd.startIndexMap = [0]) (hivd : gd.indexVectorDim = 1)
    (x : (⟨2, ![N, C]⟩ : Shape).Idx → α) (idx : IVec ⟨2, ![M, 1]⟩ 32) (hN : N < 2 ^ 31) (j : Fin M) (q : Fin C)
    (p : Fin N) (hp : (idx (ix2 j (0 : Fin 1))).toNat = p.val) :
    Host.gather gd x idx (ix2 j q) = x (ix2 p q) := by
  have hr : (idx (ix2 j (0 : Fin 1))).toNat < N := hp ▸ p.isLt
  rw [Cert.LibScatter.gather_rows gd hoff hcoll hob hsim hivd x idx hN j q hr]
  exact congrArg (fun r => x (ix2 r q)) (Fin.ext hp)

/-- The gather from a vector at a position whose start index reads p unsigned: element p. -/
private theorem gather_vec_at {N M : Nat} (gd : GatherDims ⟨1, ![N]⟩ ⟨2, ![M, 1]⟩ ⟨1, ![M]⟩)
    (hcoll : gd.collapsedSliceDims = [0]) (hob : gd.operandBatchingDims = [])
    (hsim : gd.startIndexMap = [0]) (hivd : gd.indexVectorDim = 1)
    (x : (⟨1, ![N]⟩ : Shape).Idx → α) (idx : IVec ⟨2, ![M, 1]⟩ 32) (hN : N < 2 ^ 31) (j : Fin M)
    (p : Fin N) (hp : (idx (ix2 j (0 : Fin 1))).toNat = p.val) :
    Host.gather gd x idx (ix1 j) = x (ix1 p) := by
  have hr : (idx (ix2 j (0 : Fin 1))).toNat < N := hp ▸ p.isLt
  rw [Cert.LibScatter.gather_vec gd hcoll hob hsim hivd x idx hN j hr]
  exact congrArg (fun r => x (ix1 r)) (Fin.ext hp)

end Generic

/-! ## The wrap of a start index that is already in range -/

/-- A word that reads a node's number signed is not below zero: the wrap (add the extent where negative) leaves it. -/
private theorem wrap_id (a : BitVec 32) (k : Nat) (ha : a.toInt = (k : ℤ)) :
    Scalar.select (IntOp.cmpi .slt a 0#32) (IntOp.addi a 50000#32) a = a := by
  have hlt : a.slt 0#32 = false := by
    have h0 : (0#32 : BitVec 32).toInt = 0 := by decide
    unfold BitVec.slt
    rw [ha, h0]
    exact decide_eq_false (by omega)
  have h : IntOp.cmpi .slt a 0#32 = 0#1 := by
    show BitVec.ofBool (a.slt 0#32) = 0#1
    rw [hlt]
    rfl
  rw [h]
  exact select_zero _ _

/-- … and it reads the same number unsigned. -/
private theorem toNat_of_toInt (a : BitVec 32) (k : Nat) (hk : k < 50000) (ha : a.toInt = (k : ℤ)) : a.toNat = k :=
  (Cert.LibScatter.toInt_eq_natCast_iff a k (by omega)).mp ha

/-- An index vector as the column of start indices a scatter reads. -/
def col (x : IVec S800000 32) : IVec S800000x1 32 :=
  broadcastInDim S800000x1 ![0] bcast_S800000_S800000x1_0 x

/-- An index vector wrapped (the extent added where negative), as the column of start indices a gather reads. -/
def wrapCol (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

theorem col_apply (x : IVec S800000 32) (e : Fin 800000) : col x (ix2 e (0 : Fin 1)) = x (ix1 e) :=
  bcast_col _ x e

theorem wrapCol_apply (x : IVec S800000 32) (e : Fin 800000) (k : Nat) (h : (x (ix1 e)).toInt = (k : ℤ)) :
    wrapCol x (ix2 e (0 : Fin 1)) = x (ix1 e) := by
  unfold wrapCol
  refine (bcast_col _ _ e).trans ?_
  exact wrap_id (x (ix1 e)) k h

/-! ## The three arrays as terms of the host's operations -/

/-- The norm column: the norm vector reshaped. -/
theorem nrmCol_eq : (V m c main_v0 : S50000x1.Idx → EReal)
    = shapeCast S50000x1 (nrm m c) shapeCasts_S50000_S50000x1 := by
  dsimp only [Gen.V, Gen.hostOps0]
  after_results_simp
  rfl

/-- The aggregated rows: the rows of the sources, each scaled by its norm, gathered and summed at the destinations. -/
theorem aggArr_eq : (V m c main_v12 : S50000x128.Idx → EReal)
    = Host.scatterAdd (F := Ideal) scatter_S50000x128_S800000x1_S800000x128_1_0_0_1
        (broadcastInDim S50000x128 ![] bcast_S_S50000x128 (constant (F := Ideal) S_ .f32 0x00000000#32))
        (col (dstv m c))
        (Host.gather gather_S50000x128_S800000x1_S800000x128_1_0_n_n_0_1_1128
          (mulf (broadcastInDim S50000x128 ![0, 1] bcast_S50000x1_S50000x128_0_1
            (shapeCast S50000x1 (nrm m c) shapeCasts_S50000_S50000x1)) (feat m c))
          (wrapCol (srcv m c))) := by
  dsimp only [Gen.V, Gen.hostOps0]
  after_results_simp
  rfl

/-- The weight column: the norm times the sum, at the sources, of the destinations' norms, reshaped. -/
theorem wCol_eq : (V m c main_v25 : S50000x1.Idx → EReal)
    = shapeCast S50000x1
        (mulf (shapeCast S50000 (shapeCast S50000x1 (nrm m c) shapeCasts_S50000_S50000x1) shapeCasts_S50000x1_S50000)
          (Host.scatterAdd (F := Ideal) scatter_S50000_S800000x1_S800000_n_0_0_1
            (broadcastInDim S50000 ![] bcast_S_S50000 (constant (F := Ideal) S_ .f32 0x00000000#32))
            (col (srcv m c))
            (Host.gather gather_S50000_S800000x1_S800000_n_0_n_n_0_1_1 (nrm m c) (wrapCol (dstv m c)))))
        shapeCasts_S50000_S50000x1 := by
  dsimp only [Gen.V, Gen.hostOps0]
  after_results_simp
  rfl

/-! ## The three arrays read at an index -/

theorem nrmCol_apply (i : Fin 50000) : nrmCol m c (ix2 i (0 : Fin 1)) = nrm m c (ix1 i) := by
  show (V m c main_v0 : S50000x1.Idx → EReal) (ix2 i (0 : Fin 1)) = _
  rw [nrmCol_eq]
  exact col_of_vec _ _ i

theorem aggArr_apply (hs : ∀ e : Fin 800000, (srcv m c (ix1 e)).toInt = ((s e).val : ℤ))
    (hd : ∀ e : Fin 800000, (dstv m c (ix1 e)).toInt = ((d e).val : ℤ)) (i : Fin 50000) (f : Fin 128) :
    aggArr m c (ix2 i f) = Cert.Gcn.agg (R := EReal) (fun i f => feat m c (ix2 i f)) (fun i => nrm m c (ix1 i)) s d i f := by
  show (V m c main_v12 : S50000x128.Idx → EReal) (ix2 i f) = _
  rw [aggArr_eq]
  refine (Cert.LibScatter.scatterAdd_rows _ rfl rfl rfl rfl _ _ _ i f).trans ?_
  have hz : broadcastInDim S50000x128 ![] bcast_S_S50000x128 (constant (F := Ideal) S_ .f32 0x00000000#32) (ix2 i f)
      = (0 : EReal) := Ideal.ofBits_zero_f32
  rw [hz, zero_add]
  unfold Cert.Gcn.agg
  refine Finset.sum_congr rfl fun e _ => ?_
  have hc : (col (dstv m c) (ix2 e (0 : Fin 1))).toInt = (i.val : ℤ) ↔ d e = i := by
    rw [col_apply, hd e, Nat.cast_inj, Fin.val_inj]
  refine if_congr hc ?_ rfl
  have hw : (wrapCol (srcv m c) (ix2 e (0 : Fin 1))).toNat = (s e).val := by
    rw [wrapCol_apply _ e _ (hs e)]
    exact toNat_of_toInt _ _ (s e).isLt (hs e)
  refine (gather_rows_at _ rfl rfl rfl rfl rfl _ _ (by norm_num) e f (s e) hw).trans ?_
  refine (mulf_apply _ _ _).trans ?_
  refine congrArg (· * feat m c (ix2 (s e) f)) ?_
  refine (bcast_rows_of_col _ _ (s e) f).trans ?_
  exact col_of_vec _ _ (s e)

theorem wCol_apply (hs : ∀ e : Fin 800000, (srcv m c (ix1 e)).toInt = ((s e).val : ℤ))
    (hd : ∀ e : Fin 800000, (dstv m c (ix1 e)).toInt = ((d e).val : ℤ)) (i : Fin 50000) :
    wCol m c (ix2 i (0 : Fin 1)) = nrm m c (ix1 i) * Cert.Gcn.tt (R := EReal) (fun i => nrm m c (ix1 i)) s d i := by
  show (V m c main_v25 : S50000x1.Idx → EReal) (ix2 i (0 : Fin 1)) = _
  rw [wCol_eq]
  refine (col_of_vec _ _ i).trans ?_
  refine (mulf_apply _ _ _).trans ?_
  have h1 : shapeCast S50000 (shapeCast S50000x1 (nrm m c) shapeCasts_S50000_S50000x1) shapeCasts_S50000x1_S50000 (ix1 i)
      = nrm m c (ix1 i) := (vec_of_col _ _ i).trans (col_of_vec _ _ i)
  rw [h1]
  refine congrArg (nrm m c (ix1 i) * ·) ?_
  refine (Cert.LibScatter.scatterAdd_vec _ rfl rfl rfl rfl _ _ _ i).trans ?_
  have hz : broadcastInDim S50000 ![] bcast_S_S50000 (constant (F := Ideal) S_ .f32 0x00000000#32) (ix1 i)
      = (0 : EReal) := Ideal.ofBits_zero_f32
  rw [hz, zero_add]
  unfold Cert.Gcn.tt
  refine Finset.sum_congr rfl fun e _ => ?_
  have hc : (col (srcv m c) (ix2 e (0 : Fin 1))).toInt = (i.val : ℤ) ↔ s e = i := by
    rw [col_apply, hs e, Nat.cast_inj, Fin.val_inj]
  refine if_congr hc ?_ rfl
  have hw : (wrapCol (dstv m c) (ix2 e (0 : Fin 1))).toNat = (d e).val := by
    rw [wrapCol_apply _ e _ (hd e)]
    exact toNat_of_toInt _ _ (d e).isLt (hd e)
  exact gather_vec_at _ rfl rfl rfl rfl _ _ (by norm_num) e (d e) hw

end Cert.KHost

end
-- ==== Proof.SumNodes.lean ====
/-
  A sum over the fifty thousand nodes, taken tile by tile: ten tiles of five thousand consecutive nodes.
-/
import Mathlib.Algebra.BigOperators.Fin
import Mathlib.Data.EReal.Basic
import Mathlib.Logic.Equiv.Fin.Basic

open scoped BigOperators

namespace Cert.Gcn

/-- Node `5000 t + r` is row `r` of tile `t`: the sum over all nodes is the sum over the tiles of the sums over a
    tile's rows. -/
theorem sum_nodes {A : Type*} [AddCommMonoid A] (g : Fin 50000 → A) :
    ∑ i, g i = ∑ t : Fin 10, ∑ r : Fin 5000,
      g ⟨5000 * t.val + r.val, by have := t.isLt; have := r.isLt; omega⟩ := by
  have e := (finProdFinEquiv (m := 10) (n := 5000)).sum_comp (g : Fin (10 * 5000) → A)
  rw [← e, Fintype.sum_prod_type]
  refine Finset.sum_congr rfl fun t _ => Finset.sum_congr rfl fun r _ => ?_
  congr 1
  apply Fin.ext
  show r.val + 5000 * t.val = 5000 * t.val + r.val
  omega

end Cert.Gcn
-- ==== Proof.KRun.lean ====
/-
  The kernel's result array as a function of its inputs.

  The one call walks ten tiles of five thousand nodes. At tile t it reads rows 5000 t … 5000 t + 4999 of the
  aggregated rows, of the norm column and of the weight column, and the two weight matrices and two biases whole.
  Each node i of the tile contributes, at column k of a 128-wide scratch row,
      term i k = w i · max (Σ_f (A i f · norm i) · W1 f k + b1 k) 0 ;
  the scratch row is set to zero at the first tile and each tile adds the sum of its nodes' terms, so after the
  last tile it holds Σ_i term i k over all fifty thousand nodes (the sum over the nodes taken tile by tile).
  At the last tile the result block is Σ_k (scratch k · 1/50000) · W2 k j + b2 j, and that block is the whole
  result array, written back once. With the host's three arrays read as the aggregation A, the norm and the
  weight w = norm · tt, this is the kernel-side function outK of the specification.
-/
import proofs.«428738_j81819126989161_3_alg».proof.Proof.KPieces
import proofs.«428738_j81819126989161_3_alg».proof.Proof.KArgs
import proofs.«428738_j81819126989161_3_alg».proof.Proof.KPay
import proofs.«428738_j81819126989161_3_alg».proof.Proof.KHost
import proofs.«428738_j81819126989161_3_alg».proof.Proof.Spec
import proofs.«428738_j81819126989161_3_alg».proof.Proof.SumNodes
import Idealize.ShloMosaic.Lib.ValueIdx
import Idealize.ShloMosaic.Lib.Pipeline.Value

set_option maxRecDepth 16384

noncomputable section

open scoped BigOperators

namespace Cert.KRun

open Cert.KernelIdeal Cert.KernelIdeal.Gen Cert.KArgs Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ) (c : Dev nD)

/-! ## The blocks the body reads at a point

Tile `t` of the three row-tiled arrays is rows `5000 t … 5000 t + 4999`; the four small arrays are read whole at
every point. -/

theorem idx_rows : ∀ t : Fin cfg0.N, win0_0.index t 0 = t.val ∧ win0_0.index t 1 = 0
    ∧ win0_1.index t 0 = t.val ∧ win0_1.index t 1 = 0 ∧ win0_2.index t 0 = t.val ∧ win0_2.index t 1 = 0 :=
  (by decide +kernel : ∀ t : Fin grid0.N, _)

theorem idx_whole : ∀ t : Fin cfg0.N, win0_3.index t 0 = 0 ∧ win0_3.index t 1 = 0 ∧ win0_4.index t 0 = 0
    ∧ win0_5.index t 0 = 0 ∧ win0_5.index t 1 = 0 ∧ win0_6.index t 0 = 0 ∧ win0_7.index t 0 = 0 :=
  (by decide +kernel : ∀ t : Fin grid0.N, _)

section Blocks
variable (A : (b : Ref sig .tc) → Buf (Elt Ideal) ((c : Thread nD τ).loc b)) (t : Fin cfg0.N)

theorem blk0_gen (r : Fin 5000) (f : Fin 128) (h : 5000 * t.val + r.val < 50000) :
    (((cfg0.win 0).blk t).view.read (Elt Ideal) (A (Pipeline.arrRef spec0 0)) : Vec Ideal S5000x128 .f32) (ix2 r f)
      = (A main_v12 : S50000x128.Idx → EReal) (ix2 ⟨5000 * t.val + r.val, h⟩ f) := by
  rw [View.read_apply]
  show A main_v12 _ = A main_v12 _
  congr 1
  funext a
  apply Fin.ext
  match a with
  | ⟨0, _⟩ => show win0_0.index t 0 * 5000 + 1 * r.val = 5000 * t.val + r.val; rw [(idx_rows t).1]; omega
  | ⟨1, _⟩ => show win0_0.index t 1 * 128 + 1 * f.val = f.val; rw [(idx_rows t).2.1]; omega

theorem blk1_gen (r : Fin 5000) (h : 5000 * t.val + r.val < 50000) :
    (((cfg0.win 1).blk t).view.read (Elt Ideal) (A (Pipeline.arrRef spec0 1)) : Vec Ideal S5000x1 .f32) (ix2 r (0 : Fin 1))
      = (A main_v0 : S50000x1.Idx → EReal) (ix2 ⟨5000 * t.val + r.val, h⟩ (0 : Fin 1)) := by
  rw [View.read_apply]
  show A main_v0 _ = A main_v0 _
  congr 1
  funext a
  apply Fin.ext
  match a with
  | ⟨0, _⟩ => show win0_1.index t 0 * 5000 + 1 * r.val = 5000 * t.val + r.val; rw [(idx_rows t).2.2.1]; omega
  | ⟨1, _⟩ => show win0_1.index t 1 * 1 + 1 * 0 = 0; rw [(idx_rows t).2.2.2.1]

theorem blk2_gen (r : Fin 5000) (h : 5000 * t.val + r.val < 50000) :
    (((cfg0.win 2).blk t).view.read (Elt Ideal) (A (Pipeline.arrRef spec0 2)) : Vec Ideal S5000x1 .f32) (ix2 r (0 : Fin 1))
      = (A main_v25 : S50000x1.Idx → EReal) (ix2 ⟨5000 * t.val + r.val, h⟩ (0 : Fin 1)) := by
  rw [View.read_apply]
  show A main_v25 _ = A main_v25 _
  congr 1
  funext a
  apply Fin.ext
  match a with
  | ⟨0, _⟩ => show win0_2.index t 0 * 5000 + 1 * r.val = 5000 * t.val + r.val; rw [(idx_rows t).2.2.2.2.1]; omega
  | ⟨1, _⟩ => show win0_2.index t 1 * 1 + 1 * 0 = 0; rw [(idx_rows t).2.2.2.2.2]

theorem blk3_gen (f k : Fin 128) :
    (((cfg0.win 3).blk t).view.read (Elt Ideal) (A (Pipeline.arrRef spec0 3)) : Vec Ideal S128x128 .f32) (ix2 f k)
      = (A main_arg2 : S128x128.Idx → EReal) (ix2 f k) := by
  rw [View.read_apply]
  show A main_arg2 _ = A main_arg2 _
  congr 1
  funext a
  apply Fin.ext
  match a with
  | ⟨0, _⟩ => show win0_3.index t 0 * 128 + 1 * f.val = f.val; rw [(idx_whole t).1]; omega
  | ⟨1, _⟩ => show win0_3.index t 1 * 128 + 1 * k.val = k.val; rw [(idx_whole t).2.1]; omega

theorem blk4_gen (k : Fin 128) :
    (((cfg0.win 4).blk t).view.read (Elt Ideal) (A (Pipeline.arrRef spec0 4)) : Vec Ideal S128 .f32) (ix1 k)
      = (A main_arg3 : S128.Idx → EReal) (ix1 k) := by
  rw [View.read_apply]
  show A main_arg3 _ = A main_arg3 _
  congr 1
  funext a
  apply Fin.ext
  match a with
  | ⟨0, _⟩ => show win0_4.index t 0 * 128 + 1 * k.val = k.val; rw [(idx_whole t).2.2.1]; omega

theorem blk5_gen (k : Fin 128) (j : Fin 64) :
    (((cfg0.win 5).blk t).view.read (Elt Ideal) (A (Pipeline.arrRef spec0 5)) : Vec Ideal S128x64 .f32) (ix2 k j)
      = (A main_arg4 : S128x64.Idx → EReal) (ix2 k j) := by
  rw [View.read_apply]
  show A main_arg4 _ = A main_arg4 _
  congr 1
  funext a
  apply Fin.ext
  match a with
  | ⟨0, _⟩ => show win0_5.index t 0 * 128 + 1 * k.val = k.val; rw [(idx_whole t).2.2.2.1]; omega
  | ⟨1, _⟩ => show win0_5.index t 1 * 64 + 1 * j.val = j.val; rw [(idx_whole t).2.2.2.2.1]; omega

theorem blk6_gen (j : Fin 64) :
    (((cfg0.win 6).blk t).view.read (Elt Ideal) (A (Pipeline.arrRef spec0 6)) : Vec Ideal S64 .f32) (ix1 j)
      = (A main_arg5 : S64.Idx → EReal) (ix1 j) := by
  rw [View.read_apply]
  show A main_arg5 _ = A main_arg5 _
  congr 1
  funext a
  apply Fin.ext
  match a with
  | ⟨0, _⟩ => show win0_6.index t 0 * 64 + 1 * j.val = j.val; rw [(idx_whole t).2.2.2.2.2.1]; omega

end Blocks

/-! The same blocks of the arrays as the call finds them, each named at its literal type. -/

abbrev aggBlk (t : Fin cfg0.N) : Vec Ideal S5000x128 .f32 := iblk m c 0 t
abbrev nrmBlk (t : Fin cfg0.N) : Vec Ideal S5000x1 .f32 := iblk m c 1 t
abbrev wBlk (t : Fin cfg0.N) : Vec Ideal S5000x1 .f32 := iblk m c 2 t
abbrev w1Blk (t : Fin cfg0.N) : Vec Ideal S128x128 .f32 := iblk m c 3 t
abbrev b1Blk (t : Fin cfg0.N) : Vec Ideal S128 .f32 := iblk m c 4 t
abbrev w2Blk (t : Fin cfg0.N) : Vec Ideal S128x64 .f32 := iblk m c 5 t
abbrev b2Blk (t : Fin cfg0.N) : Vec Ideal S64 .f32 := iblk m c 6 t

theorem blk0 (t : Fin cfg0.N) (r : Fin 5000) (f : Fin 128) (h : 5000 * t.val + r.val < 50000) :
    aggBlk m c t (ix2 r f) = aggArr m c (ix2 ⟨5000 * t.val + r.val, h⟩ f) :=
  blk0_gen c (V m c) t r f h

theorem blk1 (t : Fin cfg0.N) (r : Fin 5000) (h : 5000 * t.val + r.val < 50000) :
    nrmBlk m c t (ix2 r (0 : Fin 1)) = nrmCol m c (ix2 ⟨5000 * t.val + r.val, h⟩ (0 : Fin 1)) :=
  blk1_gen c (V m c) t r h

theorem blk2 (t : Fin cfg0.N) (r : Fin 5000) (h : 5000 * t.val + r.val < 50000) :
    wBlk m c t (ix2 r (0 : Fin 1)) = wCol m c (ix2 ⟨5000 * t.val + r.val, h⟩ (0 : Fin 1)) :=
  blk2_gen c (V m c) t r h

theorem blk3 (t : Fin cfg0.N) (f k : Fin 128) : w1Blk m c t (ix2 f k) = w1 m c (ix2 f k) :=
  (blk3_gen c (V m c) t f k).trans (congrFun (V_main_arg2 m c) _)

theorem blk4 (t : Fin cfg0.N) (k : Fin 128) : b1Blk m c t (ix1 k) = bias1 m c (ix1 k) :=
  (blk4_gen c (V m c) t k).trans (congrFun (V_main_arg3 m c) _)

theorem blk5 (t : Fin cfg0.N) (k : Fin 128) (j : Fin 64) : w2Blk m c t (ix2 k j) = w2 m c (ix2 k j) :=
  (blk5_gen c (V m c) t k j).trans (congrFun (V_main_arg4 m c) _)

theorem blk6 (t : Fin cfg0.N) (j : Fin 64) : b2Blk m c t (ix1 j) = bias2 m c (ix1 j) :=
  (blk6_gen c (V m c) t j).trans (congrFun (V_main_arg5 m c) _)

/-! ## What one point adds to the scratch row -/

/-- What node `i` adds at column `k`: its weight times its rectified hidden entry. -/
def term (i : Fin 50000) (k : Fin 128) : EReal :=
  wCol m c (ix2 i (0 : Fin 1))
    * max (∑ f : Fin 128, (aggArr m c (ix2 i f) * nrmCol m c (ix2 i (0 : Fin 1))) * w1 m c (ix2 f k) + bias1 m c (ix1 k)) 0

/-- What tile `n` adds to the scratch row: the sum of its five thousand nodes' terms (nothing past the grid). -/
def addend (n : ℕ) (y : S1x128.Idx) : EReal :=
  if h : n < 10 then ∑ r : Fin 5000, term m c ⟨5000 * n + r.val, by have := r.isLt; omega⟩ (y 1) else 0

/-- The update of a scratch row `acc` at point `t`: `acc` plus the tile's addend. -/
theorem update_apply (t : Fin cfg0.N) (acc : Vec Ideal S1x128 .f32) (y : S1x128.Idx) :
    k0_pay2 (F := Ideal) (aggBlk m c t) (nrmBlk m c t) (w1Blk m c t) (b1Blk m c t) acc (wBlk m c t) y
      = acc y + addend m c t.val y := by
  have ht : t.val < 10 := lt_of_lt_of_eq t.isLt (show cfg0.N = 10 from N_0)
  obtain ⟨p, k, rfl⟩ : ∃ (p : Fin 1) (k : Fin 128), y = ix2 p k := ⟨y 0, y 1, eq_ix2 y⟩
  obtain rfl : p = 0 := Subsingleton.elim _ _
  refine (Cert.KPay.pay2_apply (aggBlk m c t) (nrmBlk m c t) (w1Blk m c t) (b1Blk m c t) acc (wBlk m c t) k).trans ?_
  congr 1
  unfold addend
  rw [dif_pos ht]
  refine Finset.sum_congr rfl fun r _ => ?_
  have hr : 5000 * t.val + r.val < 50000 := by have := r.isLt; omega
  unfold term
  show _ = wCol m c (ix2 ⟨5000 * t.val + r.val, hr⟩ (0 : Fin 1))
      * max (∑ f : Fin 128, (aggArr m c (ix2 ⟨5000 * t.val + r.val, hr⟩ f) * nrmCol m c (ix2 ⟨5000 * t.val + r.val, hr⟩ (0 : Fin 1)))
          * w1 m c (ix2 f k) + bias1 m c (ix1 k)) 0
  have hsum : (∑ f : Fin 128, (aggBlk m c t (ix2 r f) * nrmBlk m c t (ix2 r (0 : Fin 1))) * w1Blk m c t (ix2 f k))
      = ∑ f : Fin 128, (aggArr m c (ix2 ⟨5000 * t.val + r.val, hr⟩ f) * nrmCol m c (ix2 ⟨5000 * t.val + r.val, hr⟩ (0 : Fin 1)))
        * w1 m c (ix2 f k) :=
    Finset.sum_congr rfl fun f _ => by rw [blk0 m c t r f hr, blk1 m c t r hr, blk3 m c t f k]
  rw [blk2 m c t r hr, blk4 m c t k, hsum]

/-! ## The scratch row after each point -/

theorem scAt_first (hb : 0 < cfg0.N) (acc : Vec Ideal S1x128 .f32) :
    Cert.KernelIdeal.Value.scAt0_0 m c 0 hb acc
      = k0_pay2 (F := Ideal) (aggBlk m c ⟨0, hb⟩) (nrmBlk m c ⟨0, hb⟩) (w1Blk m c ⟨0, hb⟩) (b1Blk m c ⟨0, hb⟩)
          (k0_pay1 (F := Ideal)) (wBlk m c ⟨0, hb⟩) := by
  unfold Cert.KernelIdeal.Value.scAt0_0
  rw [dif_pos (by decide : 0 % 10 = 0), dif_neg (by decide : ¬0 % 10 = 9)]
  exact Cert.KPieces.sout_A (F := Ideal) ..

theorem scAt_step (n : ℕ) (hb : n < cfg0.N) (h0 : 0 < n) (acc : Vec Ideal S1x128 .f32) :
    Cert.KernelIdeal.Value.scAt0_0 m c n hb acc
      = k0_pay2 (F := Ideal) (aggBlk m c ⟨n, hb⟩) (nrmBlk m c ⟨n, hb⟩) (w1Blk m c ⟨n, hb⟩) (b1Blk m c ⟨n, hb⟩)
          acc (wBlk m c ⟨n, hb⟩) := by
  have hN : n < 10 := lt_of_lt_of_eq hb (show cfg0.N = 10 from N_0)
  unfold Cert.KernelIdeal.Value.scAt0_0
  by_cases h9 : n % 10 = 9
  · rw [dif_neg (by omega : ¬n % 10 = 0), dif_pos h9]
    exact Cert.KPieces.sout_C (F := Ideal) ..
  · rw [dif_neg (by omega : ¬n % 10 = 0), dif_neg h9]
    exact Cert.KPieces.sout_B (F := Ideal) ..

/-- After point `n` the scratch row is the sum of the addends of the tiles up to `n`. -/
theorem scratch_after (n : ℕ) (hn : n < cfg0.N) (y : S1x128.Idx) :
    (outsAt0 m c n hn).2 y = 0 + ∑ s ∈ Finset.range (n + 1), addend m c (0 + s) y := by
  have hN : n < 10 := lt_of_lt_of_eq hn (show cfg0.N = 10 from N_0)
  rw [Cert.KernelIdeal.Value.soutsAt0_0_sweep m c n hn]
  refine Pipeline.accAt_add_apply
    (fun n h => Cert.KernelIdeal.Value.scAt0_0 m c n h (VS0_0.read (Elt Ideal) VS0_0.junk))
    (Cert.KernelIdeal.Value.scAt0_0 m c) (fun _ => (0 : EReal)) (addend m c) 0 9 ?_ ?_ n (by omega) _ y
  · intro h i
    show Cert.KernelIdeal.Value.scAt0_0 m c 0 h _ i = 0 + addend m c 0 i
    rw [scAt_first m c h, update_apply m c ⟨0, h⟩ _ i]
    congr 1
    obtain ⟨p, k, rfl⟩ : ∃ (p : Fin 1) (k : Fin 128), i = ix2 p k := ⟨i 0, i 1, eq_ix2 i⟩
    obtain rfl : p = 0 := Subsingleton.elim _ _
    exact Cert.KPay.pay1_apply k
  · intro n h acc i hlt hle
    rw [scAt_step m c n h hlt acc]
    exact update_apply m c ⟨n, h⟩ acc i

/-! ## The result block and the result array -/

/-- At the last point the result block is the second layer's term of the scratch row the point leaves. -/
theorem out_last (t : Fin cfg0.N) (h9 : t.val % 10 = 9) :
    (outsAt0 m c t.val t.isLt).1
      = k0_pay3 (F := Ideal) ((outsAt0 m c t.val t.isLt).2) (w2Blk m c t) (b2Blk m c t) := by
  rw [outsAt0_C m c t (by omega) h9]
  dsimp only
  rw [Cert.KPieces.out_C, Cert.KPieces.sout_C]

theorem nine_lt : 9 < cfg0.N := by rw [show cfg0.N = 10 from N_0]; decide

/-- The last point. -/
abbrev tLast : Fin cfg0.N := ⟨9, nine_lt⟩

/-- The scratch row after the last point, at column `k`: the sum of every node's term. -/
theorem scratch_last (k : Fin 128) :
    (outsAt0 m c 9 nine_lt).2 (ix2 (0 : Fin 1) k) = ∑ i : Fin 50000, term m c i k := by
  rw [scratch_after m c 9 nine_lt, zero_add, Cert.Gcn.sum_nodes (fun i => term m c i k), Finset.sum_range]
  refine Finset.sum_congr rfl fun t _ => ?_
  have ht : 0 + t.val < 10 := by have := t.isLt; omega
  unfold addend
  rw [dif_pos ht]
  refine Finset.sum_congr rfl fun r _ => ?_
  have e : (⟨5000 * (0 + t.val) + r.val, by have := r.isLt; omega⟩ : Fin 50000)
      = ⟨5000 * t.val + r.val, by have := r.isLt; have := t.isLt; omega⟩ :=
    Fin.ext (by show 5000 * (0 + t.val) + r.val = 5000 * t.val + r.val; omega)
  rw [e]

/-- The result array's contents after the run. -/
abbrev result : Buf (Elt Ideal) ((c : Thread nD τ).loc main_v26) := (outsAt0 m c 9 nine_lt).1

/-- The one write-back, at the last point, writes the result block, which is the whole array. -/
theorem flushed_eq (t : Fin cfg0.N) (hf : (cfg0.win 7).flush t = true) :
    (dats m 0 c).flushed 7 t = ((cfg0.win 7).blk t).view.read (Elt Ideal) (result m c) := by
  have hN : cfg0.N = 10 := N_0
  have h9 : t.val = 9 := by have := (flush0_7 t).mp hf; have := t.isLt; omega
  obtain rfl : t = tLast := Fin.ext h9
  rw [Cert.KernelIdeal.Value.flushed7]
  have hz' : (fun a => win0_7.index tLast a * main_v26.ty.shape.size a) = fun _ => 0 :=
    funext fun a => by fin_cases a <;> decide
  exact (Memref.read_access_unit_zero (Elt Ideal) main_v26 hz' (fun a => by rw [congrFun hz' a]; simp) (result m c)).symm

theorem final_arr : (dats m 0 c).arrAt 7 cfg0.N = result m c :=
  (dats m 0 c).arrAt_eq_of_cover 7 (result m c) (flushed_eq m c) fun i =>
    ⟨tLast, (flush0_7 tLast).mpr rfl, by
      show i ∈ ((View.whole main_v26).slice (win0_7.rect tLast)).set
      rw [View.set_slice_whole, Rect.mem_set_unit]
      intro a
      have h0 : (i 0 : Nat) < 64 := (i 0).isLt
      match a with
      | ⟨0, _⟩ =>
        show win0_7.index tLast 0 * win0_7.size 0 ≤ (i 0 : Nat)
          ∧ (i 0 : Nat) < win0_7.index tLast 0 * win0_7.size 0 + win0_7.xsize (grid0.coords tLast) 0
        rw [show win0_7.index tLast 0 * win0_7.size 0 = 0 from by decide +kernel,
          show win0_7.xsize (grid0.coords tLast) 0 = 64 from by decide +kernel]
        omega⟩

/-! ## The result array is the kernel's function of the inputs -/

section Out
variable {R : Type} [AddCommMonoid R] [Mul R] [Max R]
variable {ι ε φ κ γ : Type} [Fintype ι] [Fintype ε] [Fintype φ] [Fintype κ] [DecidableEq ι]

theorem outK_def (feat : ι → φ → R) (nrm : ι → R) (W1 : φ → κ → R) (b1 : κ → R) (W2 : κ → γ → R) (b2 : γ → R)
    (s d : ε → ι) (invN : R) (j : γ) :
    Cert.Gcn.outK feat nrm W1 b1 W2 b2 s d invN j
      = ∑ k, (Cert.Gcn.accK feat nrm W1 b1 s d k * invN) * W2 k j + b2 j := rfl

theorem accK_def (feat : ι → φ → R) (nrm : ι → R) (W1 : φ → κ → R) (b1 : κ → R) (s d : ε → ι) (k : κ) :
    Cert.Gcn.accK feat nrm W1 b1 s d k
      = ∑ i, (nrm i * Cert.Gcn.tt nrm s d i)
          * max (∑ f, (Cert.Gcn.agg feat nrm s d i f * nrm i) * W1 f k + b1 k) 0 := rfl

end Out

variable (s d : Fin 800000 → Fin 50000)

/-- A node's term is the summand of the kernel's weighted sum. -/
theorem term_eq (hs : ∀ e : Fin 800000, (srcv m c (ix1 e)).toInt = ((s e).val : ℤ))
    (hd : ∀ e : Fin 800000, (dstv m c (ix1 e)).toInt = ((d e).val : ℤ)) (i : Fin 50000) (k : Fin 128) :
    term m c i k
      = (nrm m c (ix1 i) * Cert.Gcn.tt (R := EReal) (fun i => nrm m c (ix1 i)) s d i)
        * max (∑ f : Fin 128, (Cert.Gcn.agg (R := EReal) (fun i f => feat m c (ix2 i f)) (fun i => nrm m c (ix1 i)) s d i f
            * nrm m c (ix1 i)) * w1 m c (ix2 f k) + bias1 m c (ix1 k)) 0 := by
  unfold term
  rw [Cert.KHost.wCol_apply m c s d hs hd i, Cert.KHost.nrmCol_apply m c i]
  have hsum : (∑ f : Fin 128, (aggArr m c (ix2 i f) * nrm m c (ix1 i)) * w1 m c (ix2 f k))
      = ∑ f : Fin 128, (Cert.Gcn.agg (R := EReal) (fun i f => feat m c (ix2 i f)) (fun i => nrm m c (ix1 i)) s d i f
            * nrm m c (ix1 i)) * w1 m c (ix2 f k) :=
    Finset.sum_congr rfl fun f _ => by rw [Cert.KHost.aggArr_apply m c s d hs hd i f]
  rw [hsum]

/-- The result array, entry by entry, is the kernel's function of the eight inputs. -/
theorem kernel_out (hs : ∀ e : Fin 800000, (srcv m c (ix1 e)).toInt = ((s e).val : ℤ))
    (hd : ∀ e : Fin 800000, (dstv m c (ix1 e)).toInt = ((d e).val : ℤ)) (j : Fin 64) :
    (result m c : S64.Idx → EReal) (ix1 j)
      = Cert.Gcn.outK (R := EReal) (fun i f => feat m c (ix2 i f)) (fun i => nrm m c (ix1 i))
          (fun f k => w1 m c (ix2 f k)) (fun k => bias1 m c (ix1 k)) (fun k j => w2 m c (ix2 k j))
          (fun j => bias2 m c (ix1 j)) s d (((1 / 50000 : ℝ)) : EReal) j := by
  rw [outK_def]
  show (outsAt0 m c tLast.val tLast.isLt).1 (ix1 j) = _
  rw [out_last m c tLast (by decide)]
  refine (Cert.KPay.pay3_apply ((outsAt0 m c tLast.val tLast.isLt).2) (w2Blk m c tLast) (b2Blk m c tLast) j).trans ?_
  rw [blk6 m c tLast j]
  refine congrArg (· + bias2 m c (ix1 j)) (Finset.sum_congr rfl fun k _ => ?_)
  rw [blk5 m c tLast k j, accK_def]
  show ((outsAt0 m c 9 nine_lt).2 (ix2 (0 : Fin 1) k) * _) * _ = _
  rw [scratch_last m c k, Finset.sum_congr rfl fun i _ => term_eq m c s d hs hd i k]

end Cert.KRun

end
-- ==== Proof.RefValue.lean ====
/-
  The reference's result read at an index is the specification's two propagated layers and node mean.

  Edge e has source s e and destination d e (the integer inputs, which the precondition puts in range, so the
  wrap of a negative index leaves them as they are). The product of the two gathered norms is
  norm (d e) · norm (s e); the gathered feature row scaled by it and summed at the destination is one
  propagation; the dense layer with its bias and the cut at zero is the hidden layer; the second propagation,
  the second dense layer and the sum over the nodes divided by their number give the result.
-/
import proofs.«428738_j81819126989161_3_alg».proof.Proof.Gen.ReferenceIdeal.Read
import proofs.«428738_j81819126989161_3_alg».proof.Proof.Spec
import proofs.«428738_j81819126989161_3_alg».proof.Proof.LibScatter
noncomputable section
namespace Cert.RefValue
open Idealize.ShloMosaic Idealize.ShloMosaic.ValueIdx Cert.ReferenceIdeal Cert.ReferenceIdeal.Gen Cert.ReferenceIdeal.Read
open scoped BigOperators

/-! ## The specification's pieces, spelt out on the extended reals -/

section Generic
variable {ι ε φ κ γ χ : Type} [Fintype ι] [Fintype ε] [Fintype φ] [Fintype κ] [DecidableEq ι]

theorem hid_def (W1 : φ → κ → EReal) (b1 : κ → EReal) (x : ι → φ → EReal) (i : ι) (k : κ) :
    Cert.Gcn.hid W1 b1 x i k = max (∑ f, x i f * W1 f k + b1 k) 0 := rfl

theorem sp_def (nrm : ι → EReal) (s d : ε → ι) (x : ι → χ → EReal) (i : ι) (f : χ) :
    Cert.Gcn.sp nrm s d x i f = ∑ e, if d e = i then (nrm (d e) * nrm (s e)) * x (s e) f else 0 := rfl

theorem outR_def (feat : ι → φ → EReal) (nrm : ι → EReal) (W1 : φ → κ → EReal) (b1 : κ → EReal)
    (W2 : κ → γ → EReal) (b2 : γ → EReal) (s d : ε → ι) (invN : EReal) (c : γ) :
    Cert.Gcn.outR feat nrm W1 b1 W2 b2 s d invN c
      = (∑ i, (∑ k, Cert.Gcn.sp nrm s d (Cert.Gcn.hid W1 b1 (Cert.Gcn.sp nrm s d feat)) i k * W2 k c + b2 c)) * invN := rfl

end Generic

/-! ## The integer side: an index in range is not wrapped -/

/-- A word that reads non-negative signed is left as it is by the wrap of negative indices. -/
theorem wrap_eq (x : BitVec 32) (h : 0 ≤ x.toInt) :
    Scalar.select (IntOp.cmpi .slt x 0#32) (IntOp.addi x 50000#32) x = x := by
  unfold Scalar.select IntOp.cmpi
  rw [if_neg]
  intro hc
  have h1 : x.slt 0#32 = true := (StableHlo.Predicate.ofBool_eq_one_iff _).mp hc
  rw [BitVec.slt_iff_toInt_lt] at h1
  simp at h1
  omega

/-- A 32-bit word that reads a node number signed reads it unsigned too. -/
theorem toNat_of_toInt (a : BitVec 32) (n : Fin 50000) (h : a.toInt = (n.val : ℤ)) : a.toNat = n.val :=
  (Cert.LibScatter.toInt_eq_natCast_iff a n.val (by have := n.isLt; omega)).mp h

section
variable (x0 : FVec Ideal S50000x128 .f32) (x1 : FVec Ideal S50000 .f32) (x2 : FVec Ideal S128x128 .f32)
  (x3 : FVec Ideal S128 .f32) (x4 : FVec Ideal S128x64 .f32) (x5 : FVec Ideal S64 .f32) (x6 x7 : IVec S800000 32)
  (s d : Fin 800000 → Fin 50000) (hs : ∀ e : Fin 800000, (x6 (ix1 e)).toInt = ((s e).val : ℤ))
  (hd : ∀ e : Fin 800000, (x7 (ix1 e)).toInt = ((d e).val : ℤ))

/-- Position (e, 0) of an index column is edge e. -/
theorem idx_col (e : Fin 800000) : idx_main_v5 (ix2 e (0 : Fin 1)) = ix1 e :=
  funext fun a => Fin.ext (by match a with | ⟨0, _⟩ => rfl)

/-- Position (e, f) of a row broadcast reads position (e, 0) of the column. -/
theorem idx_row (e : Fin 800000) (f : Fin 128) : idx_main_v23 (ix2 e f) = ix2 e (0 : Fin 1) :=
  funext fun a => Fin.ext (by match a with | ⟨0, _⟩ => rfl | ⟨1, _⟩ => rfl)

include hd in
/-- The destination's start index, wrapped, is the destination. -/
theorem v5_at (e : Fin 800000) : val_main_v5 (F := Ideal) x7 (ix2 e (0 : Fin 1)) = x7 (ix1 e) := by
  rw [val_main_v5_apply, val_main_v4_apply, val_main_v1_apply, val_main_v3_apply, val_main_v0_apply,
    val_main_v2_apply, val_main_c_apply, val_main_c_0_apply]
  exact (wrap_eq _ (by rw [idx_col, hd]; exact Int.natCast_nonneg _)).trans (congrArg x7 (idx_col e))

include hs in
/-- The source's start index, wrapped, is the source (first gather of the norms). -/
theorem v12_at (e : Fin 800000) : val_main_v12 (F := Ideal) x6 (ix2 e (0 : Fin 1)) = x6 (ix1 e) := by
  have idx_col : idx_main_v12 (ix2 e (0 : Fin 1)) = ix1 e := idx_col e
  rw [val_main_v12_apply, val_main_v11_apply, val_main_v8_apply, val_main_v10_apply, val_main_v7_apply,
    val_main_v9_apply, val_main_c_1_apply, val_main_c_2_apply]
  exact (wrap_eq _ (by rw [idx_col, hs]; exact Int.natCast_nonneg _)).trans (congrArg x6 idx_col)

include hs in
/-- The source's start index, wrapped, is the source (gather of the feature rows). -/
theorem v21_at (e : Fin 800000) : val_main_v21 (F := Ideal) x6 (ix2 e (0 : Fin 1)) = x6 (ix1 e) := by
  have idx_col : idx_main_v21 (ix2 e (0 : Fin 1)) = ix1 e := idx_col e
  rw [val_main_v21_apply, val_main_v20_apply, val_main_v17_apply, val_main_v19_apply, val_main_v16_apply,
    val_main_v18_apply, val_main_c_3_apply, val_main_c_4_apply]
  exact (wrap_eq _ (by rw [idx_col, hs]; exact Int.natCast_nonneg _)).trans (congrArg x6 idx_col)

include hs in
/-- The source's start index, wrapped, is the source (gather of the hidden rows). -/
theorem v39_at (e : Fin 800000) : val_main_v39 (F := Ideal) x6 (ix2 e (0 : Fin 1)) = x6 (ix1 e) := by
  have idx_col : idx_main_v39 (ix2 e (0 : Fin 1)) = ix1 e := idx_col e
  rw [val_main_v39_apply, val_main_v38_apply, val_main_v35_apply, val_main_v37_apply, val_main_v34_apply,
    val_main_v36_apply, val_main_c_5_apply, val_main_c_6_apply]
  exact (wrap_eq _ (by rw [idx_col, hs]; exact Int.natCast_nonneg _)).trans (congrArg x6 idx_col)

/-! ## The gathers -/

include hd in
/-- The norm gathered at the destination. -/
theorem v6_at (e : Fin 800000) : val_main_v6 (F := Ideal) x1 x7 (ix1 e) = x1 (ix1 (d e)) := by
  have hn : (val_main_v5 (F := Ideal) x7 (ix2 e (0 : Fin 1))).toNat = (d e).val := by
    rw [v5_at x7 d hd e]; exact toNat_of_toInt _ _ (hd e)
  have hr : (val_main_v5 (F := Ideal) x7 (ix2 e (0 : Fin 1))).toNat < 50000 := hn ▸ (d e).isLt
  unfold val_main_v6
  refine (Cert.LibScatter.gather_vec gather_S50000_S800000x1_S800000_n_0_n_n_0_1_1 rfl rfl rfl rfl x1
    (val_main_v5 (F := Ideal) x7) (by norm_num) e hr).trans ?_
  exact congrArg x1 (congrArg (ix1 (n := 50000)) (Fin.ext hn))

include hs in
/-- The norm gathered at the source. -/
theorem v13_at (e : Fin 800000) : val_main_v13 (F := Ideal) x1 x6 (ix1 e) = x1 (ix1 (s e)) := by
  have hn : (val_main_v12 (F := Ideal) x6 (ix2 e (0 : Fin 1))).toNat = (s e).val := by
    rw [v12_at x6 s hs e]; exact toNat_of_toInt _ _ (hs e)
  have hr : (val_main_v12 (F := Ideal) x6 (ix2 e (0 : Fin 1))).toNat < 50000 := hn ▸ (s e).isLt
  unfold val_main_v13
  refine (Cert.LibScatter.gather_vec gather_S50000_S800000x1_S800000_n_0_n_n_0_1_1 rfl rfl rfl rfl x1
    (val_main_v12 (F := Ideal) x6) (by norm_num) e hr).trans ?_
  exact congrArg x1 (congrArg (ix1 (n := 50000)) (Fin.ext hn))

include hs hd in
/-- The edge's weight: the two gathered norms multiplied. -/
theorem v14_at (e : Fin 800000) :
    val_main_v14 (F := Ideal) x1 x6 x7 (ix1 e) = x1 (ix1 (d e)) * x1 (ix1 (s e)) := by
  rw [val_main_v14_apply, v6_at x1 x7 d hd e, v13_at x1 x6 s hs e]
  rfl

include hs in
/-- The feature row gathered at the source. -/
theorem v22_at (e : Fin 800000) (f : Fin 128) :
    val_main_v22 (F := Ideal) x0 x6 (ix2 e f) = x0 (ix2 (s e) f) := by
  have hn : (val_main_v21 (F := Ideal) x6 (ix2 e (0 : Fin 1))).toNat = (s e).val := by
    rw [v21_at x6 s hs e]; exact toNat_of_toInt _ _ (hs e)
  have hr : (val_main_v21 (F := Ideal) x6 (ix2 e (0 : Fin 1))).toNat < 50000 := hn ▸ (s e).isLt
  unfold val_main_v22
  refine (Cert.LibScatter.gather_rows gather_S50000x128_S800000x1_S800000x128_1_0_n_n_0_1_1128 rfl rfl rfl rfl rfl x0
    (val_main_v21 (F := Ideal) x6) (by norm_num) e f hr).trans ?_
  exact congrArg x0 (congrArg (fun p : Fin 50000 => ix2 p f) (Fin.ext hn))

include hs hd in
/-- The edge's message: the source's feature row scaled by the edge's weight. -/
theorem v24_at (e : Fin 800000) (f : Fin 128) :
    val_main_v24 (F := Ideal) x0 x1 x6 x7 (ix2 e f) = (x1 (ix1 (d e)) * x1 (ix1 (s e))) * x0 (ix2 (s e) f) := by
  have hc : idx_main_v15 (ix2 e (0 : Fin 1)) = ix1 e := idx_col e
  rw [val_main_v24_apply, val_main_v23_apply, val_main_v15_apply, idx_row, hc,
    v14_at x1 x6 x7 s d hs hd e, v22_at x0 x6 s hs e f]
  rfl

end

section
variable (x0 : FVec Ideal S50000x128 .f32) (x1 : FVec Ideal S50000 .f32) (x2 : FVec Ideal S128x128 .f32)
  (x3 : FVec Ideal S128 .f32) (x4 : FVec Ideal S128x64 .f32) (x5 : FVec Ideal S64 .f32) (x6 x7 : IVec S800000 32)
  (s d : Fin 800000 → Fin 50000) (hs : ∀ e : Fin 800000, (x6 (ix1 e)).toInt = ((s e).val : ℤ))
  (hd : ∀ e : Fin 800000, (x7 (ix1 e)).toInt = ((d e).val : ℤ))

/-! ## The first propagation and the hidden layer -/

/-- An update lands on node i exactly when its edge's destination is i. -/
theorem lands_iff (a : BitVec 32) (n i : Fin 50000) (h : a.toInt = (n.val : ℤ)) :
    a.toInt = (i.val : ℤ) ↔ n = i := by
  rw [h, Nat.cast_inj, Fin.val_inj]

include hs hd in
/-- The messages summed at their destinations: one propagation of the features. -/
theorem v27_at (i : Fin 50000) (f : Fin 128) :
    val_main_v27 (F := Ideal) x0 x1 x6 x7 (ix2 i f)
      = Cert.Gcn.sp (R := EReal) (fun i => x1 (ix1 i)) s d (fun i f => x0 (ix2 i f)) i f := by
  unfold val_main_v27
  refine (Cert.LibScatter.scatterAdd_rows scatter_S50000x128_S800000x1_S800000x128_1_0_0_1 rfl rfl rfl rfl
    (val_main_v25 (F := Ideal)) (val_main_v26 (F := Ideal) x7) (val_main_v24 (F := Ideal) x0 x1 x6 x7) i f).trans ?_
  rw [val_main_v25_apply, val_main_cst_apply, Ideal.ofBits_def, Ideal.ofBits_zero_f32, zero_add]
  unfold Cert.Gcn.sp
  refine Finset.sum_congr rfl fun e _ => ?_
  have hc : idx_main_v26 (ix2 e (0 : Fin 1)) = ix1 e := idx_col e
  rw [val_main_v26_apply, hc, v24_at x0 x1 x6 x7 s d hs hd e f]
  exact if_congr (lands_iff _ (d e) i (hd e)) rfl rfl

include hs hd in
/-- The dense layer on the propagated features, its bias, the cut at zero: the hidden layer. -/
theorem v32_at (i : Fin 50000) (k : Fin 128) :
    val_main_v32 (F := Ideal) x0 x1 x2 x3 x6 x7 (ix2 i k)
      = Cert.Gcn.hid (R := EReal) (fun f k => x2 (ix2 f k)) (fun k => x3 (ix1 k))
          (Cert.Gcn.sp (R := EReal) (fun i => x1 (ix1 i)) s d (fun i f => x0 (ix2 i f))) i k := by
  have h1 : idx_main_v29 (idx_main_v30 (ix2 i k)) = ix1 k :=
    funext fun a => Fin.ext (by match a with | ⟨0, _⟩ => rfl)
  rw [val_main_v32_apply, val_main_v31_apply, val_main_v28_apply, val_main_v30_apply, val_main_v29_apply,
    val_main_call0_v0_apply, val_main_call0_cst_apply, h1, Ideal.ofBits_def, Ideal.ofBits_zero_f32, hid_def]
  simp only [Ideal.maximumf_def, Ideal.addf_def]
  refine congrArg (fun t : EReal => max (t + x3 (ix1 k)) 0) ?_
  refine Finset.sum_congr rfl fun f _ => ?_
  have hl : lidx_main_v28 (ix2 i k) f = ix2 i f :=
    funext fun a => Fin.ext (by match a with | ⟨0, _⟩ => rfl | ⟨1, _⟩ => rfl)
  have hr : ridx_main_v28 (ix2 i k) f = ix2 f k :=
    funext fun a => Fin.ext (by match a with | ⟨0, _⟩ => rfl | ⟨1, _⟩ => rfl)
  rw [hl, hr, v27_at x0 x1 x6 x7 s d hs hd i f]

/-! ## The second propagation -/

include hs hd in
/-- The hidden row gathered at the source. -/
theorem v40_at (e : Fin 800000) (k : Fin 128) :
    val_main_v40 (F := Ideal) x0 x1 x2 x3 x6 x7 (ix2 e k)
      = val_main_v32 (F := Ideal) x0 x1 x2 x3 x6 x7 (ix2 (s e) k) := by
  have hn : (val_main_v39 (F := Ideal) x6 (ix2 e (0 : Fin 1))).toNat = (s e).val := by
    rw [v39_at x6 s hs e]; exact toNat_of_toInt _ _ (hs e)
  have hr : (val_main_v39 (F := Ideal) x6 (ix2 e (0 : Fin 1))).toNat < 50000 := hn ▸ (s e).isLt
  unfold val_main_v40
  generalize val_main_v32 (F := Ideal) x0 x1 x2 x3 x6 x7 = y at *
  refine (Cert.LibScatter.gather_rows gather_S50000x128_S800000x1_S800000x128_1_0_n_n_0_1_1128 rfl rfl rfl rfl rfl
    y (val_main_v39 (F := Ideal) x6) (by norm_num) e k hr).trans ?_
  exact congrArg y (congrArg (fun p : Fin 50000 => ix2 p k) (Fin.ext hn))

/-- One update of the second scatter, with the message's factors named. -/
theorem msg_congr (a : BitVec 32) (n i : Fin 50000) (h : a.toInt = (n.val : ℤ)) (w H : EReal) :
    (if a.toInt = (i.val : ℤ) then FloatOps.mulf (F := Ideal) (φ := .f32) w H else 0)
      = if n = i then w * H else 0 :=
  if_congr (lands_iff a n i h) rfl rfl

include hs hd in
/-- The second messages summed at their destinations: one propagation of the hidden layer. -/
theorem v45_at (i : Fin 50000) (k : Fin 128) :
    val_main_v45 (F := Ideal) x0 x1 x2 x3 x6 x7 (ix2 i k)
      = Cert.Gcn.sp (R := EReal) (fun i => x1 (ix1 i)) s d
          (Cert.Gcn.hid (R := EReal) (fun f k => x2 (ix2 f k)) (fun k => x3 (ix1 k))
            (Cert.Gcn.sp (R := EReal) (fun i => x1 (ix1 i)) s d (fun i f => x0 (ix2 i f)))) i k := by
  unfold val_main_v45
  refine (Cert.LibScatter.scatterAdd_rows scatter_S50000x128_S800000x1_S800000x128_1_0_0_1 rfl rfl rfl rfl
    (val_main_v43 (F := Ideal)) (val_main_v44 (F := Ideal) x7)
    (val_main_v42 (F := Ideal) x0 x1 x2 x3 x6 x7) i k).trans ?_
  rw [val_main_v43_apply, val_main_cst_7_apply, Ideal.ofBits_def, Ideal.ofBits_zero_f32, zero_add, sp_def]
  refine Finset.sum_congr rfl fun e _ => ?_
  have hc : idx_main_v44 (ix2 e (0 : Fin 1)) = ix1 e := idx_col e
  have hc' : idx_main_v33 (ix2 e (0 : Fin 1)) = ix1 e := idx_col e
  have hrow : idx_main_v41 (ix2 e k) = ix2 e (0 : Fin 1) := idx_row e k
  rw [val_main_v44_apply, hc, val_main_v42_apply, val_main_v41_apply, val_main_v33_apply, hrow, hc',
    v14_at x1 x6 x7 s d hs hd e, v40_at x0 x1 x2 x3 x6 x7 s d hs hd e k,
    v32_at x0 x1 x2 x3 x6 x7 s d hs hd (s e) k]
  exact msg_congr _ (d e) i (hd e) _ _

/-! ## The second dense layer, the sum over the nodes, the division by their number -/

include hs hd in
/-- The second dense layer on the propagated hidden layer, with its bias. -/
theorem v49_at (i : Fin 50000) (c : Fin 64) :
    val_main_v49 (F := Ideal) x0 x1 x2 x3 x4 x5 x6 x7 (ix2 i c)
      = (∑ k : Fin 128, Cert.Gcn.sp (R := EReal) (fun i => x1 (ix1 i)) s d
          (Cert.Gcn.hid (R := EReal) (fun f k => x2 (ix2 f k)) (fun k => x3 (ix1 k))
            (Cert.Gcn.sp (R := EReal) (fun i => x1 (ix1 i)) s d (fun i f => x0 (ix2 i f)))) i k * x4 (ix2 k c))
        + x5 (ix1 c) := by
  have h1 : idx_main_v47 (idx_main_v48 (ix2 i c)) = ix1 c :=
    funext fun a => Fin.ext (by match a with | ⟨0, _⟩ => rfl)
  rw [val_main_v49_apply, val_main_v46_apply, val_main_v48_apply, val_main_v47_apply, h1]
  simp only [Ideal.addf_def]
  refine congrArg (fun t : EReal => t + x5 (ix1 c)) ?_
  refine Finset.sum_congr rfl fun k _ => ?_
  have hl : lidx_main_v46 (ix2 i c) k = ix2 i k :=
    funext fun a => Fin.ext (by match a with | ⟨0, _⟩ => rfl | ⟨1, _⟩ => rfl)
  have hr : ridx_main_v46 (ix2 i c) k = ix2 k c :=
    funext fun a => Fin.ext (by match a with | ⟨0, _⟩ => rfl | ⟨1, _⟩ => rfl)
  rw [hl, hr, v45_at x0 x1 x2 x3 x6 x7 s d hs hd i k]

include hs hd in
/-- The sum over the nodes. -/
theorem v50_at (c : Fin 64) :
    val_main_v50 (F := Ideal) x0 x1 x2 x3 x4 x5 x6 x7 (ix1 c)
      = ∑ i : Fin 50000, ((∑ k : Fin 128, Cert.Gcn.sp (R := EReal) (fun i => x1 (ix1 i)) s d
          (Cert.Gcn.hid (R := EReal) (fun f k => x2 (ix2 f k)) (fun k => x3 (ix1 k))
            (Cert.Gcn.sp (R := EReal) (fun i => x1 (ix1 i)) s d (fun i f => x0 (ix2 i f)))) i k * x4 (ix2 k c))
        + x5 (ix1 c)) := by
  rw [val_main_v50_apply, val_main_cst_8_apply, Ideal.ofBits_def, Ideal.ofBits_zero_f32, zero_add]
  refine Finset.sum_congr rfl fun i _ => ?_
  have h : idx_main_v50 (ix1 c) i = ix2 i c :=
    funext fun a => Fin.ext (by match a with | ⟨0, _⟩ => rfl | ⟨1, _⟩ => rfl)
  rw [h, v49_at x0 x1 x2 x3 x4 x5 x6 x7 s d hs hd i c]

end

/-- The divisor's word denotes the number of nodes. -/
theorem ofBits_50000 : Ideal.ofBits .f32 0x47435000#32 = ((50000 : ℝ) : EReal) := by
  simp [Ideal.ofBits, Ideal.ieee]
  rw [← EReal.coe_mul]
  norm_num

/-- The reference's result at output c is the specification's: the mean over the nodes of the second dense layer
    on the twice-propagated rows. -/
theorem ref_eq (x0 : FVec Ideal S50000x128 .f32) (x1 : FVec Ideal S50000 .f32) (x2 : FVec Ideal S128x128 .f32)
    (x3 : FVec Ideal S128 .f32) (x4 : FVec Ideal S128x64 .f32) (x5 : FVec Ideal S64 .f32) (x6 x7 : IVec S800000 32)
    (s d : Fin 800000 → Fin 50000) (hs : ∀ e : Fin 800000, (x6 (ix1 e)).toInt = ((s e).val : ℤ))
    (hd : ∀ e : Fin 800000, (x7 (ix1 e)).toInt = ((d e).val : ℤ)) (c : Fin 64) :
    val_main_v52 (F := Ideal) x0 x1 x2 x3 x4 x5 x6 x7 (ix1 c)
      = Cert.Gcn.outR (R := EReal) (fun i f => x0 (ix2 i f)) (fun i => x1 (ix1 i)) (fun f k => x2 (ix2 f k))
          (fun k => x3 (ix1 k)) (fun k c => x4 (ix2 k c)) (fun c => x5 (ix1 c)) s d (((1 / 50000 : ℝ)) : EReal) c := by
  rw [val_main_v52_apply, val_main_v51_apply, val_main_cst_9_apply, Ideal.hostDivf_def, Ideal.ofBits_def,
    ofBits_50000, Ideal.div_coe (by norm_num), v50_at x0 x1 x2 x3 x4 x5 x6 x7 s d hs hd c, outR_def]

end Cert.RefValue
end
-- ==== Proof.lean ====
/-
  Two programs for a two-layer graph convolution followed by the mean over the nodes, on a graph of 50000 nodes
  and 800000 edges (source s e, destination d e, both required in range by the precondition), are equal over the
  extended reals on finite inputs.

  The reference propagates twice,  (P x) i = Σ_{e : d e = i} norm (d e) · norm (s e) · x (s e),  and returns
      mean_i ( P (relu (P feat · W1 + b1)) · W2 + b2 ).
  The kernel propagates once on the host, A i = Σ_{e : d e = i} norm (s e) · feat (s e), builds a scalar weight per
  node, w j = norm j · Σ_{e : s e = j} norm (d e), and in one call over ten tiles of nodes accumulates
  Σ_i w i · relu ((A i · norm i) · W1 + b1), scales it by the named constant 1/50000 and applies the second layer.
  The two agree because P feat i = A i · norm i, because a propagation summed over all nodes is a sum over all
  edges, which grouped by source is the w-weighted sum, and because the mean of the constant row b2 is b2; these
  are laws of the reals, used here through the fact that every value computed from real inputs is real.

  The kernel's result array as a function of the inputs is read off its run tile by tile; the reference's is read
  off its run operation by operation; the precondition gives the finiteness and the index ranges.
-/
import proofs.«428738_j81819126989161_3_alg».proof.Defs
import proofs.«428738_j81819126989161_3_alg».proof.Proof.Gen.Kernel
import proofs.«428738_j81819126989161_3_alg».proof.Proof.Gen.Kernel.Skeleton
import proofs.«428738_j81819126989161_3_alg».proof.Proof.Gen.Kernel.Launch
import proofs.«428738_j81819126989161_3_alg».proof.Proof.Gen.Kernel.Points
import proofs.«428738_j81819126989161_3_alg».proof.Proof.Gen.Kernel.Frame
import proofs.«428738_j81819126989161_3_alg».proof.Proof.Gen.KernelIdeal
import proofs.«428738_j81819126989161_3_alg».proof.Proof.Gen.KernelIdeal.Skeleton
import proofs.«428738_j81819126989161_3_alg».proof.Proof.Gen.KernelIdeal.Launch
import proofs.«428738_j81819126989161_3_alg».proof.Proof.Gen.KernelIdeal.Points
import proofs.«428738_j81819126989161_3_alg».proof.Proof.Gen.KernelIdeal.Frame
import proofs.«428738_j81819126989161_3_alg».proof.Proof.Gen.ReferenceIdeal
import proofs.«428738_j81819126989161_3_alg».proof.Proof.Gen.KernelIdeal.Value
import proofs.«428738_j81819126989161_3_alg».proof.Proof.Gen.ReferenceIdeal.Run
import proofs.«428738_j81819126989161_3_alg».proof.Proof.Gen.ReferenceIdeal.Read
import proofs.«428738_j81819126989161_3_alg».proof.Proof.Gen.Pre_finite_inputs
import proofs.«428738_j81819126989161_3_alg».proof.Proof.Spec
import proofs.«428738_j81819126989161_3_alg».proof.Proof.PreFacts
import proofs.«428738_j81819126989161_3_alg».proof.Proof.KRun
import proofs.«428738_j81819126989161_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal names the rational 1/50000. -/
theorem preserves : Cert.preserves_Kernel_KernelIdeal :=
  IdealRules.named_const.statement Cert.KernelIdeal.κ "inv_50000" .f32 0x37A7C5AC#32 ((1 / 50000 : ℝ) : EReal) rfl

/-- The count of the nodes times the named constant is one. -/
theorem card_nodes : (Fintype.card (Fin 50000) : ℝ) * (1 / 50000 : ℝ) = 1 := by
  rw [Fintype.card_fin]; norm_num

/-- Both runs end with the same result array: the kernel's function of the inputs, which on finite inputs with
    indices in range is the reference's. -/
theorem algebraic : Cert.algebraic_KernelIdeal_ReferenceIdeal := by
  intro m ρ m' ρ' hpre hagree
  refine ⟨fun c => Cert.KRun.result m c, ?_, ?_⟩
  · exact (θ_run Cert.KernelIdeal.defs _ _).mono
      (fun r h c => ⟨(h c).1.trans (Cert.KRun.final_arr m c), (h c).2⟩) (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, ⟨s, hs⟩, ⟨d, hd⟩⟩ := Cert.PreFacts.of_pre _ _ _ _ _ _ _ _ (hpre c)
    rw [Cert.ReferenceIdeal.Read.val_main_v52_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    funext idx
    obtain ⟨j, rfl⟩ : ∃ j : Fin 64, idx = ix1 j := ⟨idx 0, eq_ix1 idx⟩
    rw [Cert.RefValue.ref_eq _ _ _ _ _ _ _ _ s d hs hd j]
    refine Eq.trans ?_ (Cert.KRun.kernel_out m c s d hs hd j).symm
    exact (Cert.Gcn.outK_eq_outR_of_real _ _ _ _ _ _ s d (1 / 50000 : ℝ) (fun i f => h0 (ix2 i f)) (fun i => h1 (ix1 i))
      (fun f k => h2 (ix2 f k)) (fun k => h3 (ix1 k)) (fun k j => h4 (ix2 k j)) (fun j => h5 (ix1 j)) card_nodes j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
